-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x32000 : Shape := ⟨3, ![4, 2048, 32000]⟩
abbrev S4x2048 : Shape := ⟨2, ![4, 2048]⟩
abbrev S4 : Shape := ⟨1, ![4]⟩
abbrev S_ : Shape := ⟨0, ![]⟩

class Facts : Prop where
  bcast_S_S4x2048x32000 : S_.BroadcastsInDim S4x2048x32000 (![] : Fin 0 → Fin S4x2048x32000.rank)
  reducesTo_S4x2048x32000_S_d0_1_2 : S4x2048x32000.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg2 : IVec S4x2048 32) (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  let main_c_6 : IVec S_ 32 := constantI S_ 32 0#32
  let main_v19 : IVec S4x2048 32 := broadcastInDim S4x2048 ![] bcast_S_S4x2048 main_c_6
  let main_v20 : IVec S4x2048 1 := cmpi .sge main_arg2 main_v19
  let main_c_7 : IVec S_ 1 := constantI S_ 1 1#1
  let main_v21 : IVec S_ 1 := (fun x v => Host.reduce IntOp.andi x v reducesTo_S4x2048_S_d0_1 h_S_) main_v20 main_c_7
  let main_v22 : IVec S_ 1 := andi main_v18 main_v21
  let main_c_8 : IVec S_ 32 := constantI S_ 32 32000#32
  let main_v23 : IVec S4x2048 32 := broadcastInDim S4x2048 ![] bcast_S_S4x2048 main_c_8
  let main_v24 : IVec S4x2048 1 := cmpi .slt main_arg2 main_v23
  let main_c_9 : IVec S_ 1 := constantI S_ 1 1#1
  let main_v25 : IVec S_ 1 := (fun x v => Host.reduce IntOp.andi x v reducesTo_S4x2048_S_d0_1 h_S_) main_v24 main_c_9
  let main_v26 : IVec S_ 1 := andi main_v22 main_v25
  main_v26

def fn {F : FTy → Type} [FloatOps F] (main_arg0 : FVec F S4x2048x32000 .f32) (main_arg1 : FVec F S4x2048 .f32) (main_arg2 : IVec S4x2048 32) (main_arg3 : FVec F S4 .f32) (main_arg4 : FVec F S4x2048 .f32) : IVec S_ 1 :=
  let main_v0 : FVec F S4x2048x32000 .f32 := Host.absf main_arg0
  let main_cst : FVec F S_ .f32 := constant S_ .f32 0x7F800000#32
  let main_v1 : FVec F S4x2048x32000 .f32 := broadcastInDim S4x2048x32000 ![] bcast_S_S4x2048x32000 main_cst
  let main_v2 : IVec S4x2048x32000 1 := cmpf .olt main_v0 main_v1
  let main_c : IVec S_ 1 := constantI S_ 1 1#1
  let main_v3 : IVec S_ 1 := (fun x v => Host.reduce IntOp.andi x v reducesTo_S4x2048x32000_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x2048 .f32 := Host.absf main_arg4
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_arg2 main_v13 main_v16
-- ==== Kernel.lean ====
abbrev S4x2048x32000 : Shape := ⟨3, ![4, 2048, 32000]⟩
abbrev S4x2048 : Shape := ⟨2, ![4, 2048]⟩
abbrev S4 : Shape := ⟨1, ![4]⟩
abbrev S4x2048x1 : Shape := ⟨3, ![4, 2048, 1]⟩
abbrev S4x1x1 : Shape := ⟨3, ![4, 1, 1]⟩
abbrev S1x64x32000 : Shape := ⟨3, ![1, 64, 32000]⟩
abbrev S1x64x1 : Shape := ⟨3, ![1, 64, 1]⟩
abbrev S64x32000 : Shape := ⟨2, ![64, 32000]⟩
abbrev S64 : Shape := ⟨1, ![64]⟩
abbrev S64x1 : Shape := ⟨2, ![64, 1]⟩
abbrev S_ : Shape := ⟨0, ![]⟩

abbrev nBuf : Space → Nat
  | .hbm => 21
  | .vmem => 12
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .f32⟩
  | .hbm, ⟨2, _⟩ => ⟨S4x2048, .i32⟩
  | .hbm, ⟨3, _⟩ => ⟨S4, .f32⟩
  | .hbm, ⟨4, _⟩ => ⟨S4x2048, .f32⟩
  | .hbm, ⟨5, _⟩ => ⟨S4x2048x1, .i32⟩
  | .hbm, ⟨6, _⟩ => ⟨S4x2048x1, .f32⟩
  | .hbm, ⟨7, _⟩ => ⟨S4x2048x1, .f32⟩
  | .hbm, ⟨8, _⟩ => ⟨S4x1x1, .f32⟩
  | .hbm, ⟨9, _⟩ => ⟨S4x2048x1, .f32⟩
  | .hbm, ⟨10, _⟩ => ⟨S4x2048x1, .f32⟩
  | .hbm, ⟨11, _⟩ => ⟨S4x2048, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x64x32000, .f32⟩
  | .local _ .vmem, ⟨1, _⟩ => ⟨S1x64x32000, .f32⟩
  | .local _ .vmem, ⟨2, _⟩ => ⟨S1x64x1, .i32⟩
  | .local _ .vmem, ⟨3, _⟩ => ⟨S1x64x1, .i32⟩
  | .local _ .vmem, ⟨4, _⟩ => ⟨S1x64x1, .f32⟩
  | .local _ .vmem, ⟨5, _⟩ => ⟨S1x64x1, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x1, .f32⟩
  | .local _ .vmem, ⟨11, _⟩ => ⟨S1x64x1, .f32⟩
  | _, _ => ⟨S4x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048_S4x2048x1 : S4x2048.ShapeCasts S4x2048x1
  bcast_S4_S4x1x1_0 : S4.BroadcastsInDim S4x1x1 (![0] : Fin 1 → Fin S4x1x1.rank)
  bcast_S4x1x1_S4x2048x1_0_1_2 : S4x1x1.BroadcastsInDim S4x2048x1 (![0, 1, 2] : Fin 3 → Fin S4x2048x1.rank)
  inb_S1x64x32000_S1x64x32000_0_0_0 : ∀ a, (![0, 0, 0] : Fin 3 → Nat) a + S1x64x32000.size a ≤ S1x64x32000.size a
  h_S1x64x32000 : 0 < S1x64x32000.numel
  shapeCasts_S1x64x32000_S64x32000 : S1x64x32000.ShapeCasts S64x32000
  reduces_S64x32000_S64 : S64x32000.Reduces [1] S64
  shapeCasts_S64_S64x1 : S64.ShapeCasts S64x1
  broadcasts_S64x1_S64x32000 : S64x1.Broadcasts S64x32000
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  iota_S64x32000_d1_w32 : S64x32000.Iotas .tc 32 [1]
  shapeCasts_S64x1_S1x64x1 : S64x1.ShapeCasts S1x64x1
  shapeCasts_S4x2048x1_S4x2048 : S4x2048x1.ShapeCasts S4x2048
  reducesTo_S4x2048_S4_d1 : S4x2048.ReducesTo [1] S4
  h_S_ : 0 < S_.numel
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x32000.size a ≤ S4x2048x32000.size a
  hwx0_0 : ∀ i : grid0.Coords, EltTy.bits .f32 = 32 ∨ (Rect.block (s := S4x2048x32000) S1x64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1.size a ≤ S4x2048x1.size a
  hwx0_1 : ∀ i : grid0.Coords, EltTy.bits .i32 = 32 ∨ (Rect.block (s := S4x2048x1) S1x64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S4x2048x1.size a
  hwx0_2 : ∀ i : grid0.Coords, EltTy.bits .f32 = 32 ∨ (Rect.block (s := S4x2048x1) S1x64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x1.size a ≤ S4x2048x1.size a
  hwx0_3 : ∀ i : grid0.Coords, EltTy.bits .f32 = 32 ∨ (Rect.block (s := S4x2048x1) S1x64x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S4x2048x1.size a
  hwx0_4 : ∀ i : grid0.Coords, EltTy.bits .f32 = 32 ∨ (Rect.block (s := S4x2048x1) S1x64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S4x2048x1.size a
  hwx0_5 : ∀ i : grid0.Coords, EltTy.bits .f32 = 32 ∨ (Rect.block (s := S4x2048x1) S1x64x1.size (cc0_transform_5 i) (hinb0_5 i)).WholeWords (EltTy.packing .f32)

variable [Facts₀]

abbrev win0_0 : Pipeline.Window sig grid0 :=
  Pipeline.Window.ofSpec (Memref.whole main_arg0) S1x64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x64x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x32000 : Shape := ⟨3, ![4, 2048, 32000]⟩
abbrev S4x2048 : Shape := ⟨2, ![4, 2048]⟩
abbrev S4 : Shape := ⟨1, ![4]⟩
abbrev S_ : Shape := ⟨0, ![]⟩
abbrev S4x2048x1 : Shape := ⟨3, ![4, 2048, 1]⟩
abbrev S4x2048x1x1 : Shape := ⟨4, ![4, 2048, 1, 1]⟩
abbrev S1 : Shape := ⟨1, ![1]⟩
abbrev S1x1x1x1 : Shape := ⟨4, ![1, 1, 1, 1]⟩
abbrev S4x1 : Shape := ⟨2, ![4, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x2048x32000, .f32⟩
  | .hbm, ⟨1, _⟩ => ⟨S4x2048, .f32⟩
  | .hbm, ⟨2, _⟩ => ⟨S4x2048, .i32⟩
  | .hbm, ⟨3, _⟩ => ⟨S4, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048x1, .f32⟩
  | .hbm, ⟨11, _⟩ => ⟨S4x2048x32000, .f32⟩
  | .hbm, ⟨12, _⟩ => ⟨S4x2048x32000, .f32⟩
  | .hbm, ⟨13, _⟩ => ⟨S4x2048x32000, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S4x2048x1, .f32⟩
  | .hbm, ⟨18, _⟩ => ⟨S4x2048x32000, .f32⟩
  | .hbm, ⟨19, _⟩ => ⟨S4x2048x32000, .f32⟩
  | .hbm, ⟨20, _⟩ => ⟨S4x2048x1, .i32⟩
  | .hbm, ⟨21, _⟩ => ⟨S_, .i32⟩
  | .hbm, ⟨22, _⟩ => ⟨S4x2048x1, .i32⟩
  | .hbm, ⟨23, _⟩ => ⟨S4x2048x1, .i1⟩
  | .hbm, ⟨24, _⟩ => ⟨S_, .i32⟩
  | .hbm, ⟨25, _⟩ => ⟨S4x2048x1, .i32⟩
  | .hbm, ⟨26, _⟩ => ⟨S4x2048x1, .i32⟩
  | .hbm, ⟨27, _⟩ => ⟨S4x2048x1, .i32⟩
  | .hbm, ⟨28, _⟩ => ⟨S4x2048x1x1, .i32⟩
  | .hbm, ⟨29, _⟩ => ⟨S1, .i32⟩
  | .hbm, ⟨30, _⟩ => ⟨S_, .i32⟩
  | .hbm, ⟨31, _⟩ => ⟨S4x2048x1x1, .i32⟩
  | .hbm, ⟨32, _⟩ => ⟨S4x2048x1x1, .i1⟩
  | .hbm, ⟨33, _⟩ => ⟨S1x1x1x1, .i32⟩
  | .hbm, ⟨34, _⟩ => ⟨S4x2048x1x1, .i32⟩
  | .hbm, ⟨35, _⟩ => ⟨S4x2048x1x1, .i1⟩
  | .hbm, ⟨36, _⟩ => ⟨S4x2048x1x1, .i1⟩
  | .hbm, ⟨37, _⟩ => ⟨S_, .i1⟩
  | .hbm, ⟨38, _⟩ => ⟨S4x2048x1, .i1⟩
  | .hbm, ⟨39, _⟩ => ⟨S4x2048x1, .f32⟩
  | .hbm, ⟨40, _⟩ => ⟨S_, .f32⟩
  | .hbm, ⟨41, _⟩ => ⟨S4x2048x1, .f32⟩
  | .hbm, ⟨42, _⟩ => ⟨S4x2048x1, .f32⟩
  | .hbm, ⟨43, _⟩ => ⟨S4x2048, .f32⟩
  | .hbm, ⟨44, _⟩ => ⟨S4x2048, .f32⟩
  | .hbm, ⟨45, _⟩ => ⟨S4x2048, .f32⟩
  | .hbm, ⟨46, _⟩ => ⟨S4x2048, .f32⟩
  | .hbm, ⟨47, _⟩ => ⟨S_, .f32⟩
  | .hbm, ⟨48, _⟩ => ⟨S4x2048, .f32⟩
  | .hbm, ⟨49, _⟩ => ⟨S4x2048, .f32⟩
  | .hbm, ⟨50, _⟩ => ⟨S4x2048, .f32⟩
  | .hbm, ⟨51, _⟩ => ⟨S4x2048, .f32⟩
  | .hbm, ⟨52, _⟩ => ⟨S4x1, .f32⟩
  | .hbm, ⟨53, _⟩ => ⟨S4x2048, .f32⟩
  | .hbm, ⟨54, _⟩ => ⟨S4x2048, .f32⟩
  | .hbm, ⟨55, _⟩ => ⟨S_, .f32⟩
  | .hbm, ⟨56, _⟩ => ⟨S4x2048, .f32⟩
  | .hbm, ⟨57, _⟩ => ⟨S4x2048, .f32⟩
  | .hbm, ⟨58, _⟩ => ⟨S4x2048, .f32⟩
  | .hbm, ⟨59, _⟩ => ⟨S4x2048, .f32⟩
  | .hbm, ⟨60, _⟩ => ⟨S4x2048, .f32⟩
  | .hbm, ⟨61, _⟩ => ⟨S_, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S4x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v0 : Ref sig .tc := ⟨.hbm, 19, rfl⟩
abbrev main_v1 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_0 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_cst_1 : Ref sig .tc := ⟨.hbm, 61, rfl⟩
abbrev main_v19 : Ref sig .tc := ⟨.hbm, 62, rfl⟩
abbrev main_cst_2 : Ref sig .tc := ⟨.hbm, 63, rfl⟩
abbrev main_v20 : Ref sig .tc := ⟨.hbm, 64, rfl⟩
abbrev main_v21 : Ref sig .tc := ⟨.hbm, 65, rfl⟩
abbrev main_cst_3 : Ref sig .tc := ⟨.hbm, 66, rfl⟩
abbrev main_v22 : Ref sig .tc := ⟨.hbm, 67, rfl⟩
abbrev main_cst_4 : Ref sig .tc := ⟨.hbm, 68, rfl⟩
abbrev main_v23 : Ref sig .tc := ⟨.hbm, 69, rfl⟩

abbrev nD : Nat := 1
abbrev τ : Topo := Topo.v7x

variable {F : FTy → Type} [FloatOps F]

class Facts₀ : Prop where
  reducesTo_S4x2048x32000_S4x2048_d2 : S4x2048x32000.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x32000_0_1_2 : S4x2048x1.BroadcastsInDim S4x2048x32000 (![0, 1, 2] : Fin 3 → Fin S4x2048x32000.rank)
  bcast_S_S4x2048x1 : S_.BroadcastsInDim S4x2048x1 (![] : Fin 0 → Fin S4x2048x1.rank)
  shapeCasts_S4x2048x1_S4x2048x1x1 : S4x2048x1.ShapeCasts S4x2048x1x1
  bcast_S_S4x2048x1x1 : S_.BroadcastsInDim S4x2048x1x1 (![] : Fin 0 → Fin S4x2048x1x1.rank)
  bcast_S1_S1x1x1x1_3 : S1.BroadcastsInDim S1x1x1x1 (![3] : Fin 1 → Fin S1x1x1x1.rank)
  bcast_S1x1x1x1_S4x2048x1x1_0_1_2_3 : S1x1x1x1.BroadcastsInDim S4x2048x1x1 (![0, 1, 2, 3] : Fin 4 → Fin S4x2048x1x1.rank)
  reducesTo_S4x2048x1x1_S4x2048x1_d3 : S4x2048x1x1.ReducesTo [3] S4x2048x1
  shapeCasts_S4x2048x1_S4x2048 : S4x2048x1.ShapeCasts S4x2048
  bcast_S4_S4x1_0 : S4.BroadcastsInDim S4x1 (![0] : Fin 1 → Fin S4x1.rank)
  bcast_S4x1_S4x2048_0_1 : S4x1.BroadcastsInDim S4x2048 (![0, 1] : Fin 2 → Fin S4x2048.rank)
  reducesTo_S4x2048_S4_d1 : S4x2048.ReducesTo [1] S4
  reducesTo_S4_S_d0 : S4.ReducesTo [0] S_
  gather_S4x2048x32000_S4x2048x1x1_S4x2048x1_n_2_01_01_2_3_111_wf : GatherDims.WF S4x2048x32000 S4x2048x1x1 S4x2048x1 [] [2] [0, 1] [2] [0, 1] 3 ![1, 1, 1]

variable [Facts₀]

def gather_S4x2048x32000_S4x2048x1x1_S4x2048x1_n_2_01_01_2_3_111 : GatherDims S4x2048x32000 S4x2048x1x1 S4x2048x1 where
  offsetDims := []
  collapsedSliceDims := [2]
  operandBatchingDims := [0, 1]
  startIndicesBatchingDims := [0, 1]
  startIndexMap := [2]
  indexVectorDim := 3
  sliceSizes := ![1, 1, 1]
  wf := gather_S4x2048x32000_S4x2048x1x1_S4x2048x1_n_2_01_01_2_3_111_wf

class Facts : Prop extends Facts₀ where

variable [Facts]
-- ==== Proof.TokenLoss.lean ====
/-
  The per-token loss of one row of logits, on the extended reals, in the two arrangements the programs compute it in.

  For a row x of 32000 logits, a token id, a reference log-probability r, an advantage a and a mask weight k:

    kernel     m = max_v x_v,  s = ∑_v exp (x_v - m),  g = ∑_v (x_v if v = id else 0),
               d = r - (g - (m + log s)),               loss = (β (exp d - d - 1) - a) k
    reference  m' = max (-∞) m,  s' = 0 + ∑_v exp (x_v - m'),  p = (x_id - m') - log s',
               d' = r - p,                               loss = -(exp (p - p) a - β (exp d' - d' - 1)) k

  with β the same binary32 constant on both sides. When every x_v, r and a are real numbers and id names a column,
  g is x_id (one term of the masked sum survives), m is a real number (a maximum of finitely many reals, the row is not
  empty), s is a positive real (a sum of exponentials), so log s is real, p - p = 0 and exp 0 = 1, and the two losses
  are one real number times k: x_id - (m + log s) = (x_id - m) - log s and -(a - β t) = β t - a over the reals.
  Nothing is asked of k: both sides multiply the same real by it.
-/
import Idealize.ShloMosaic.PureOps.Ideal
import Idealize.ShloMosaic.PureOps.Ideal.Laws
import Mathlib.Data.Finset.Fold

noncomputable section

open scoped BigOperators

namespace Cert.TokenLoss

open Idealize.ShloMosaic

/-- The maximum of a row, folded from the binary32 pattern of -∞ as both programs fold it. -/
def rowMax (x : Fin 32000 → EReal) : EReal :=
  (Finset.univ : Finset (Fin 32000)).fold max (Ideal.ofBits .f32 0xFF800000#32) x

/-- The kernel's arrangement: the realized token's logit picked by an equality mask over the column numbers and a sum,
    the log-sum-exp formed as m + log s and subtracted whole. -/
def kernelToken (x : Fin 32000 → EReal) (id : BitVec 32) (r a k : EReal) : EReal :=
  (Ideal.ofBits .f32 0x3DCCCCCD#32
      * (Ideal.exp (r - ((∑ v : Fin 32000, Scalar.select (IntOp.cmpi .eq (BitVec.ofNat 32 v.val) id) (x v) (Ideal.ofBits .f32 0x00000000#32))
            - (rowMax x + Ideal.log (∑ v : Fin 32000, Ideal.exp (x v - rowMax x)))))
          - (r - ((∑ v : Fin 32000, Scalar.select (IntOp.cmpi .eq (BitVec.ofNat 32 v.val) id) (x v) (Ideal.ofBits .f32 0x00000000#32))
            - (rowMax x + Ideal.log (∑ v : Fin 32000, Ideal.exp (x v - rowMax x)))))
          - Ideal.ofBits .f32 0x3F800000#32)
    - a) * k

/-- The reference's arrangement: the log-softmax of the row read at column q, the ratio exp (p - p) kept as written. -/
def referenceToken (x : Fin 32000 → EReal) (q : Fin 32000) (r a k : EReal) : EReal :=
  -(Ideal.exp ((x q - max (Ideal.ofBits .f32 0xFF800000#32) (rowMax x)
          - Ideal.log (Ideal.ofBits .f32 0x00000000#32 + ∑ v : Fin 32000, Ideal.exp (x v - max (Ideal.ofBits .f32 0xFF800000#32) (rowMax x))))
        - (x q - max (Ideal.ofBits .f32 0xFF800000#32) (rowMax x)
          - Ideal.log (Ideal.ofBits .f32 0x00000000#32 + ∑ v : Fin 32000, Ideal.exp (x v - max (Ideal.ofBits .f32 0xFF800000#32) (rowMax x))))) * a
      - Ideal.ofBits .f32 0x3DCCCCCD#32
        * (Ideal.exp (r - (x q - max (Ideal.ofBits .f32 0xFF800000#32) (rowMax x)
              - Ideal.log (Ideal.ofBits .f32 0x00000000#32 + ∑ v : Fin 32000, Ideal.exp (x v - max (Ideal.ofBits .f32 0xFF800000#32) (rowMax x)))))
          - (r - (x q - max (Ideal.ofBits .f32 0xFF800000#32) (rowMax x)
              - Ideal.log (Ideal.ofBits .f32 0x00000000#32 + ∑ v : Fin 32000, Ideal.exp (x v - max (Ideal.ofBits .f32 0xFF800000#32) (rowMax x)))))
          - Ideal.ofBits .f32 0x3F800000#32)) * k

/-! ## The constants -/

theorem ofBits_negInf : Ideal.ofBits .f32 0xFF800000#32 = ⊥ := by simp [Ideal.ofBits, Ideal.ieee]
theorem ofBits_one : Ideal.ofBits .f32 0x3F800000#32 = ((1 : ℝ) : EReal) := by
  rw [EReal.coe_one]; exact IdealRules.sign_bit.ideal_onePat .f32
/-- The scale β is a real number (a dyadic rational: which one is not needed). -/
theorem ofBits_beta_real : ∃ c : ℝ, Ideal.ofBits .f32 0x3DCCCCCD#32 = (c : EReal) := by
  refine ⟨13421773 * ((2 : ℝ) ^ 27)⁻¹, ?_⟩
  simp [Ideal.ofBits, Ideal.ieee]

/-! ## Sums of reals in the extended reals -/

theorem coe_sum {ι : Type} (s : Finset ι) (f : ι → ℝ) : (∑ i ∈ s, (f i : EReal)) = ((∑ i ∈ s, f i : ℝ) : EReal) := by
  classical
  induction s using Finset.induction_on with
  | empty => simp
  | insert b s hb ih => rw [Finset.sum_insert hb, Finset.sum_insert hb, ih, EReal.coe_add]

/-! ## The row's maximum, its sum of exponentials, the masked sum -/

/-- The maximum of a row of real numbers is a real number. -/
theorem rowMax_real (xr : Fin 32000 → ℝ) : ∃ m : ℝ, rowMax (fun v => (xr v : EReal)) = (m : EReal) := by
  have hlt : rowMax (fun v => (xr v : EReal)) < ⊤ := by
    unfold rowMax
    refine (Finset.fold_max_lt _).mpr ⟨?_, fun v _ => EReal.coe_lt_top _⟩
    rw [ofBits_negInf]; exact bot_lt_top
  have hgt : ⊥ < rowMax (fun v => (xr v : EReal)) := by
    unfold rowMax
    exact lt_of_lt_of_le (EReal.bot_lt_coe (xr ⟨0, by decide⟩))
      ((Finset.le_fold_max _).mpr (Or.inr ⟨⟨0, by decide⟩, Finset.mem_univ _, le_refl _⟩))
  exact ⟨_, (EReal.coe_toReal hlt.ne hgt.ne').symm⟩

/-- The equality mask over the column numbers keeps exactly column q. -/
theorem select_eq_column (q v : Fin 32000) (A B : EReal) :
    Scalar.select (IntOp.cmpi .eq (BitVec.ofNat 32 v.val) (BitVec.ofNat 32 q.val)) A B = if v = q then A else B := by
  unfold Scalar.select IntOp.cmpi
  by_cases h : v = q
  · subst h; simp
  · have hne : BitVec.ofNat 32 v.val ≠ BitVec.ofNat 32 q.val := by
      intro e
      apply h
      have e' := congrArg BitVec.toNat e
      simp only [BitVec.toNat_ofNat] at e'
      have hv := v.isLt
      have hq := q.isLt
      apply Fin.ext
      omega
    have hb : (BitVec.ofNat 32 v.val == BitVec.ofNat 32 q.val) = false := by simpa using hne
    simp [hb, h]

theorem maskedSum_eq_column (x : Fin 32000 → EReal) (q : Fin 32000) :
    (∑ v : Fin 32000, Scalar.select (IntOp.cmpi .eq (BitVec.ofNat 32 v.val) (BitVec.ofNat 32 q.val)) (x v) (Ideal.ofBits .f32 0x00000000#32)) = x q := by
  simp only [select_eq_column, Ideal.ofBits_zero_f32]
  rw [Finset.sum_ite_eq' Finset.univ q x, if_pos (Finset.mem_univ q)]

/-! ## The two arrangements are one real number times the mask weight -/

theorem kernelToken_eq_referenceToken (xr : Fin 32000 → ℝ) (q : Fin 32000) (r a : ℝ) (k : EReal) :
    kernelToken (fun v => (xr v : EReal)) (BitVec.ofNat 32 q.val) (r : EReal) (a : EReal) k
      = referenceToken (fun v => (xr v : EReal)) q (r : EReal) (a : EReal) k := by
  obtain ⟨m, hm⟩ := rowMax_real xr
  obtain ⟨c, hc⟩ := ofBits_beta_real
  have hs : 0 < ∑ v : Fin 32000, Real.exp (xr v - m) :=
    Finset.sum_pos (fun v _ => Real.exp_pos _) ⟨⟨0, by decide⟩, Finset.mem_univ _⟩
  have hsum : (∑ v : Fin 32000, Ideal.exp ((xr v : EReal) - (m : EReal))) = ((∑ v : Fin 32000, Real.exp (xr v - m) : ℝ) : EReal) := by
    rw [← coe_sum]
    exact Finset.sum_congr rfl fun v _ => by rw [← EReal.coe_sub, Ideal.exp_coe]
  have hlog : Ideal.log ((∑ v : Fin 32000, Real.exp (xr v - m) : ℝ) : EReal) = ((Real.log (∑ v : Fin 32000, Real.exp (xr v - m)) : ℝ) : EReal) := by
    rw [Ideal.log_coe, if_neg (not_le.mpr hs)]
  unfold kernelToken referenceToken
  rw [maskedSum_eq_column]
  simp only [hm, ofBits_negInf, max_eq_right bot_le, Ideal.ofBits_zero_f32, zero_add, hsum, hlog, hc, ofBits_one]
  refine congrArg (· * k) ?_
  simp only [← EReal.coe_sub, ← EReal.coe_add, ← EReal.coe_mul, ← EReal.coe_neg, Ideal.exp_coe]
  refine congrArg _ ?_
  rw [sub_self, Real.exp_zero]
  ring_nf

/-- The same, for any row, reference log-probability and advantage that are real numbers and any id word that names a
    column. -/
theorem referenceToken_eq_kernelToken (X : Fin 32000 → EReal) (q : Fin 32000) (idw : BitVec 32) (R A K : EReal)
    (hX : ∀ v, ∃ r : ℝ, X v = (r : EReal)) (hR : ∃ r : ℝ, R = (r : EReal)) (hA : ∃ a : ℝ, A = (a : EReal))
    (hid : idw = BitVec.ofNat 32 q.val) :
    referenceToken X q R A K = kernelToken X idw R A K := by
  obtain ⟨r, rfl⟩ := hR
  obtain ⟨a, rfl⟩ := hA
  subst hid
  choose xr hxr using hX
  obtain rfl : X = fun v => (xr v : EReal) := funext hxr
  exact (kernelToken_eq_referenceToken xr q r a K).symm

end Cert.TokenLoss

end
-- ==== Proof.PreFacts.lean ====
/-
  What the precondition says.

  The printed precondition is a conjunction of six jnp.all's: |x| < +∞ at every entry of the logits, the reference
  log-probabilities, the advantages and the mask weights, and 0 ≤ id and id < 32000 at every token id. Read at the ideal
  values: an extended real whose absolute value is below +∞ is a real number, and a 32-bit word between 0 and 32000 read
  signed is the word of a column number below 32000.
-/
import proofs.«430598_j54941221651106_2_alg».proof.Pre_finite_inputs
import proofs.«430598_j54941221651106_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Decoded

open Cert.Pre_finite_inputs Idealize.ShloMosaic Idealize.ShloMosaic.ValueIdx

instance : Subsingleton S_.Idx := ⟨fun a b => funext fun d => d.elim0⟩

theorem ofBits_posInf : Ideal.ofBits .f32 0x7F800000#32 = ⊤ := by simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_posInf] at h
  unfold Ideal.cmp at h
  have hlt : max x (-x) < ⊤ := by
    by_contra hn
    simp [hn] at h
  induction x using EReal.rec with
  | bot => simp at hlt
  | top => simp at hlt
  | coe r => exact ⟨r, rfl⟩

/-- A word between 0 and 32000, read signed, is the word of a column number. -/
theorem column_of_range (x : BitVec 32) (h0 : 0 ≤ x.toInt) (h1 : x.toInt < 32000) :
    ∃ q : Fin 32000, x = BitVec.ofNat 32 q.val := by
  have e := BitVec.toInt_eq_toNat_cond x
  have hx := x.isLt
  split_ifs at e with hc
  · refine ⟨⟨x.toNat, by omega⟩, ?_⟩
    simp
  · exfalso; omega

variable (a0 : FVec Ideal S4x2048x32000 .f32) (a1 : FVec Ideal S4x2048 .f32) (a2 : IVec S4x2048 32) (a3 : FVec Ideal S4 .f32)
  (a4 : FVec Ideal S4x2048 .f32)

/-- The precondition, decoded: the logits, the reference log-probabilities and the advantages are real numbers, and the
    token ids are column numbers. -/
theorem decoded (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a3 i = (r : EReal))
      ∧ ∀ i, ∃ q : Fin 32000, a2 i = BitVec.ofNat 32 q.val := by
  have h0 := congrFun h ix0
  dsimp only [fn, fn_part1] at h0
  change IntOp.andi (IntOp.andi (IntOp.andi (IntOp.andi (IntOp.andi _ _) _) _) _) _ = 1#1 at h0
  obtain ⟨⟨⟨⟨⟨hl, hr⟩, ha⟩, -⟩, hge⟩, hlt⟩ := by
    simpa only [IntOp.andi_eq_one] using h0
  refine ⟨fun i => ?_, fun i => ?_, fun i => ?_, fun i => ?_⟩
  · exact real_of_abs_lt _ (Host.reduce_andi_all _ _ _ _ _ hl i)
  · exact real_of_abs_lt _ (Host.reduce_andi_all _ _ _ _ _ hr i)
  · exact real_of_abs_lt _ (Host.reduce_andi_all _ _ _ _ _ ha i)
  · have g := IntOp.cmpi_sge.mp (Host.reduce_andi_all _ _ _ _ _ hge i)
    have l := IntOp.cmpi_slt.mp (Host.reduce_andi_all _ _ _ _ _ hlt i)
    exact column_of_range _ g l

end Cert.Pre_finite_inputs.Decoded

end
-- ==== Proof.KernelBody.lean ====
/-
  The kernel's body at one row of its block.

  The body works on a [1, 64, 32000] block of logits and four [1, 64, 1] columns (token ids, reference log-probabilities,
  advantages, mask weights). Every operation of it is either pointwise or one of a few layout operations, each read here
  at explicit coordinates (row ρ of 64, lane k of 32000): the block seen as 64 rows of 32000 lanes, a vector of 64 row
  results seen as a column, a column copied along the lanes, a [1, 64, 1] column seen as [64, 1] and back, the lane
  numbers, and the two row reductions (a maximum folded from -∞, a sum). With those in place the value stored at row ρ of
  the output column is the per-token loss, in the kernel's arrangement, of row ρ of the logits block and entry ρ of each
  column.
-/
import proofs.«430598_j54941221651106_2_alg».proof.Proof.Gen.KernelIdeal.Skeleton
import proofs.«430598_j54941221651106_2_alg».proof.Proof.TokenLoss
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.TokenLoss

variable {α : Type}

/-! ## The layout operations at explicit coordinates -/

/-- The [1, 64, 32000] block seen as 64 rows: row ρ, lane k is the block at (0, ρ, k). -/
theorem rows_of_block (v : S1x64x32000.Idx → α) (h : S1x64x32000.ShapeCasts S64x32000) (ρ : Fin 64) (k : Fin 32000) :
    shapeCast S64x32000 v h (ix2 ρ k) = v (ix3 (0 : Fin 1) ρ k) := by
  refine shapeCast_apply v h _ _ ?_
  rw [Shape.rowMajor_val_three, Shape.rowMajor_val_two]
  show (0 * 64 + ρ.val) * 32000 + k.val = ρ.val * 32000 + k.val
  omega

/-- A vector of 64 row results seen as a [64, 1] column. -/
theorem col_of_vec (v : S64.Idx → α) (h : S64.ShapeCasts S64x1) (ρ : Fin 64) (z : Fin 1) :
    shapeCast S64x1 v h (ix2 ρ z) = v (ix1 ρ) := by
  refine shapeCast_apply v h _ _ ?_
  rw [Shape.rowMajor_val_one, Shape.rowMajor_val_two]
  show ρ.val = ρ.val * 1 + z.val
  omega

/-- A [64, 1] column copied along the 32000 lanes. -/
theorem lanes_of_col (v : S64x1.Idx → α) (h : S64x1.Broadcasts S64x32000) (ρ : Fin 64) (k : Fin 32000) :
    broadcastTo S64x32000 v h (ix2 ρ k) = v (ix2 ρ (0 : Fin 1)) := by
  refine broadcastTo_apply v h _ _ ?_
  intro a
  match a with
  | ⟨0, _⟩ => rfl
  | ⟨1, _⟩ => rfl

/-- A [1, 64, 1] column seen as [64, 1]. -/
theorem col_of_block (v : S1x64x1.Idx → α) (h : S1x64x1.ShapeCasts S64x1) (ρ : Fin 64) (z : Fin 1) :
    shapeCast S64x1 v h (ix2 ρ z) = v (ix3 (0 : Fin 1) ρ (0 : Fin 1)) := by
  refine shapeCast_apply v h _ _ ?_
  rw [Shape.rowMajor_val_three, Shape.rowMajor_val_two]
  show (0 * 64 + ρ.val) * 1 + 0 = ρ.val * 1 + z.val
  omega

/-- A [64, 1] column seen as a [1, 64, 1] block. -/
theorem block_of_col (v : S64x1.Idx → α) (h : S64x1.ShapeCasts S1x64x1) (z : Fin 1) (ρ : Fin 64) (z' : Fin 1) :
    shapeCast S1x64x1 v h (ix3 z ρ z') = v (ix2 ρ (0 : Fin 1)) := by
  refine shapeCast_apply v h _ _ ?_
  rw [Shape.rowMajor_val_two, Shape.rowMajor_val_three]
  show ρ.val * 1 + 0 = (z.val * 64 + ρ.val) * 1 + z'.val
  omega

/-- The lane numbers. -/
theorem lane_numbers (h : S64x32000.Iotas .tc 32 [1]) (ρ : Fin 64) (k : Fin 32000) :
    iota .tc S64x32000 32 [1] h (ix2 ρ k) = BitVec.ofNat 32 k.val :=
  iota_single_apply .tc S64x32000 32 1 h (ix2 ρ k)

/-- The index of row ρ, lane k, as the row reduction names it. -/
theorem lift_row (h : S64x32000.Reduces [1] S64) (ρ : Fin 64) (k : Fin 32000) :
    h.lift (ix1 ρ) k = ix2 ρ k := by
  funext c
  refine Fin.ext ?_
  match c with
  | ⟨0, _⟩ => rfl
  | ⟨1, _⟩ => rfl

/-- A row's maximum, folded from -∞. -/
theorem row_maximum (v : FVec Ideal S64x32000 .f32) (h : S64x32000.Reduces [1] S64) (hφ : FKind.Formats .f32)
    (hacc : (0xFF800000#32 : BitVec 32) = FKind.maximumf.neutral .f32 hφ) (ρ : Fin 64) :
    multiReduction .maximumf [1] S64 v 0xFF800000#32 h hφ hacc (ix1 ρ) = rowMax (fun k => v (ix2 ρ k)) := by
  rw [Ideal.multiReduction_maximumf_single]
  unfold rowMax
  exact congrArg (fun f => Finset.fold max (Ideal.ofBits .f32 0xFF800000#32) f (Finset.univ : Finset (Fin 32000)))
    (funext fun k => congrArg v (lift_row h ρ k))

/-- A row's sum. -/
theorem row_sum (v : FVec Ideal S64x32000 .f32) (h : S64x32000.Reduces [1] S64) (hφ : FKind.Formats .f32)
    (hacc : (0x00000000#32 : BitVec 32) = FKind.add.neutral .f32 hφ) (ρ : Fin 64) :
    multiReduction .add [1] S64 v 0x00000000#32 h hφ hacc (ix1 ρ) = ∑ k : Fin 32000, v (ix2 ρ k) := by
  rw [Ideal.multiReduction_add_single]
  exact Finset.sum_congr rfl fun k _ => congrArg v (lift_row h ρ k)

/-! ## The three row quantities of the body, over the block -/

section Row

variable (x0 : FVec Ideal S1x64x32000 .f32) (x1 : IVec S1x64x1 32)
  (hc : S1x64x32000.ShapeCasts S64x32000) (hr : S64x32000.Reduces [1] S64) (hφ : FKind.Formats .f32)
  (hmax : (0xFF800000#32 : BitVec 32) = FKind.maximumf.neutral .f32 hφ) (hadd : (0x00000000#32 : BitVec 32) = FKind.add.neutral .f32 hφ)
  (hv : S64.ShapeCasts S64x1) (hb : S64x1.Broadcasts S64x32000) (hc1 : S1x64x1.ShapeCasts S64x1) (hi : S64x32000.Iotas .tc 32 [1])
  (ρ : Fin 64)

/-- The maximum of row ρ of the block. -/
theorem block_row_max :
    multiReduction .maximumf [1] S64 (shapeCast S64x32000 x0 hc) 0xFF800000#32 hr hφ hmax (ix1 ρ)
      = rowMax (fun k => x0 (ix3 (0 : Fin 1) ρ k)) := by
  rw [row_maximum]
  exact congrArg rowMax (funext fun k => rows_of_block x0 hc ρ k)

/-- The sum over row ρ of the exponentials of the logits less the row's maximum. -/
theorem block_row_sumexp :
    multiReduction .add [1] S64
        (exp (subf (shapeCast S64x32000 x0 hc)
          (broadcastTo S64x32000 (shapeCast S64x1 (multiReduction .maximumf [1] S64 (shapeCast S64x32000 x0 hc) 0xFF800000#32 hr hφ hmax) hv) hb)))
        0x00000000#32 hr hφ hadd (ix1 ρ)
      = ∑ k : Fin 32000, Ideal.exp (x0 (ix3 (0 : Fin 1) ρ k) - rowMax (fun k => x0 (ix3 (0 : Fin 1) ρ k))) := by
  rw [row_sum]
  refine Finset.sum_congr rfl fun k _ => ?_
  show Ideal.exp (shapeCast S64x32000 x0 hc (ix2 ρ k)
      - broadcastTo S64x32000 (shapeCast S64x1 (multiReduction .maximumf [1] S64 (shapeCast S64x32000 x0 hc) 0xFF800000#32 hr hφ hmax) hv) hb (ix2 ρ k)) = _
  rw [rows_of_block, lanes_of_col, col_of_vec, block_row_max]

/-- The sum over row ρ of the logits kept where the lane number is the row's token id, zero elsewhere. -/
theorem block_row_masked (z0 : Ideal .f32) :
    multiReduction .add [1] S64
        (select (cmpi .eq (iota .tc S64x32000 32 [1] hi) (broadcastTo S64x32000 (shapeCast S64x1 x1 hc1) hb))
          (shapeCast S64x32000 x0 hc) (broadcast S64x32000 z0))
        0x00000000#32 hr hφ hadd (ix1 ρ)
      = ∑ k : Fin 32000, Scalar.select (IntOp.cmpi .eq (BitVec.ofNat 32 k.val) (x1 (ix3 (0 : Fin 1) ρ (0 : Fin 1)))) (x0 (ix3 (0 : Fin 1) ρ k)) z0 := by
  rw [row_sum]
  refine Finset.sum_congr rfl fun k _ => ?_
  show Scalar.select (IntOp.cmpi .eq (iota .tc S64x32000 32 [1] hi (ix2 ρ k))
      (broadcastTo S64x32000 (shapeCast S64x1 x1 hc1) hb (ix2 ρ k))) (shapeCast S64x32000 x0 hc (ix2 ρ k)) z0 = _
  rw [lane_numbers, lanes_of_col, col_of_block, rows_of_block]

end Row

/-! ## The pointwise top of the body, over abstract columns -/

/-- Over any five columns (the masked sum g, the row maximum m, the sum of exponentials s, and the reference log-probability,
    advantage and mask weight columns already as [64, 1]) the body's last operations are, at an entry, the loss formula of
    the entry's values. -/
theorem top_at (g m s : FVec Ideal S64 .f32) (r2 a k : FVec Ideal S64x1 .f32) (hv : S64.ShapeCasts S64x1) (i : S64x1.Idx) :
    mulf (subf (mulf (broadcast S64x1 (Scalar.ofBits .f32 0x3DCCCCCD#32))
        (subf (subf (exp (subf r2 (subf (shapeCast S64x1 g hv) (addf (shapeCast S64x1 m hv) (log (shapeCast S64x1 s hv))))))
            (subf r2 (subf (shapeCast S64x1 g hv) (addf (shapeCast S64x1 m hv) (log (shapeCast S64x1 s hv))))))
          (broadcast S64x1 (Scalar.ofBits .f32 0x3F800000#32)))) a) k i
      = (Ideal.ofBits .f32 0x3DCCCCCD#32
          * (Ideal.exp (r2 i - (shapeCast S64x1 g hv i - (shapeCast S64x1 m hv i + Ideal.log (shapeCast S64x1 s hv i))))
              - (r2 i - (shapeCast S64x1 g hv i - (shapeCast S64x1 m hv i + Ideal.log (shapeCast S64x1 s hv i))))
              - Ideal.ofBits .f32 0x3F800000#32)
          - a i) * k i := rfl

/-! ## The stored value at a row -/

/-- Row ρ of the stored column is the kernel's per-token loss of row ρ of the logits block and entry ρ of each of the
    four columns. -/
theorem stored_at (x0 : FVec Ideal S1x64x32000 .f32) (x1 : IVec S1x64x1 32) (x2 x3 x4 : FVec Ideal S1x64x1 .f32)
    (z : Fin 1) (ρ : Fin 64) (z' : Fin 1) :
    k0_pay1 (F := Ideal) (k0_pay2 (F := Ideal) x0 x1 x2 x3 x4) (ix3 z ρ z')
      = kernelToken (fun v => x0 (ix3 (0 : Fin 1) ρ v)) (x1 (ix3 (0 : Fin 1) ρ (0 : Fin 1)))
          (x2 (ix3 (0 : Fin 1) ρ (0 : Fin 1))) (x3 (ix3 (0 : Fin 1) ρ (0 : Fin 1))) (x4 (ix3 (0 : Fin 1) ρ (0 : Fin 1))) := by
  unfold k0_pay1 k0_pay2
  dsimp only
  rw [block_of_col]
  refine (top_at _ _ _ _ _ _ _ _).trans ?_
  rw [col_of_vec, col_of_vec, col_of_vec, col_of_block, col_of_block, col_of_block]
  rw [block_row_masked x0 x1 shapeCasts_S1x64x32000_S64x32000 reduces_S64x32000_S64 (Or.inl rfl) rfl broadcasts_S64x1_S64x32000
      shapeCasts_S1x64x1_S64x1 iota_S64x32000_d1_w32 ρ,
    block_row_max x0 shapeCasts_S1x64x32000_S64x32000 reduces_S64x32000_S64 (Or.inl rfl) rfl ρ,
    block_row_sumexp x0 shapeCasts_S1x64x32000_S64x32000 reduces_S64x32000_S64 (Or.inl rfl) rfl rfl shapeCasts_S64_S64x1
      broadcasts_S64x1_S64x32000 ρ]
  rfl

end Cert.KernelIdeal.Body

end
-- ==== Proof.KernelArray.lean ====
/-
  From the kernel's blocks to its output array.

  The grid has 4 × 32 points; at point (b, λ) every window's block index is (b, λ, 0): the logits window fetches rows
  64 λ … 64 λ + 63 of batch b, the four column windows the same rows of their [4, 2048, 1] arrays, and the output window
  writes those rows back. So what point t writes back is the block, at t, of ONE array-sized function: at (b, l, 0) the
  kernel's per-token loss of row (b, l) of the logits and entry (b, l, 0) of each column array. The 128 blocks cover the
  output array, so after the run the array is that function of the arrays the region finds.
-/
import proofs.«430598_j54941221651106_2_alg».proof.Proof.Gen.KernelIdeal.Frame
import proofs.«430598_j54941221651106_2_alg».proof.Proof.KernelBody
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr

open Cert.KernelIdeal Cert.KernelIdeal.Gen Cert.KernelIdeal.Body Cert.TokenLoss

variable (m : (ℓ : Loc nD τ sig) → Buf (Elt Ideal) ℓ)

theorem hz : (![0, 0, 0] : Fin 3 → Nat) = fun _ => 0 := funext fun a => by fin_cases a <;> rfl

/-- The loss of token (b, l) from a logits array and four column arrays. -/
def tokenAt (A0 : S4x2048x32000.Idx → EReal) (Aid : S4x2048x1.Idx → BitVec 32) (Ar Aa Ak : S4x2048x1.Idx → EReal)
    (b : Fin 4) (l : Fin 2048) : EReal :=
  kernelToken (fun v => A0 (ix3 b l v)) (Aid (ix3 b l (0 : Fin 1))) (Ar (ix3 b l (0 : Fin 1))) (Aa (ix3 b l (0 : Fin 1)))
    (Ak (ix3 b l (0 : Fin 1)))

/-- The output array as one function of the arrays: at (b, l, ·) the loss of token (b, l). -/
def lossArray (A0 : S4x2048x32000.Idx → EReal) (Aid : S4x2048x1.Idx → BitVec 32) (Ar Aa Ak : S4x2048x1.Idx → EReal) :
    S4x2048x1.Idx → EReal :=
  fun i => tokenAt A0 Aid Ar Aa Ak ⟨(i 0).val, (i 0).isLt⟩ ⟨(i 1).val, (i 1).isLt⟩

/-- The printed index maps, decided over the grid: every window's block index at a point is the output window's, the
    last coordinate 0, the first two inside the 4 × 32 blocks. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = win0_5.index t (1 : Fin 3) ∧ win0_1.index t (2 : Fin 3) = 0
    ∧ win0_2.index t (0 : Fin 3) = win0_5.index t (0 : Fin 3) ∧ win0_2.index t (1 : Fin 3) = win0_5.index t (1 : Fin 3) ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (2 : Fin 3) = 0 ∧ win0_5.index t (0 : Fin 3) < 4 ∧ win0_5.index t (1 : Fin 3) < 32 :=
  (by decide +kernel : ∀ t : Fin grid0.N, _)

/-- Every block of the output array is some point's. -/
theorem idx_onto : ∀ (q0 : Fin 4) (q1 : Fin 32), ∃ t : Fin cfg0.N, win0_5.index t = ![q0.val, q1.val, 0] :=
  (by decide +kernel : ∀ (q0 : Fin 4) (q1 : Fin 32), ∃ t : Fin grid0.N, win0_5.index t = ![q0.val, q1.val, 0])

/-! ## Each block as rows of its array -/

/-- The logits block at point t is rows 64 λ … 64 λ + 63 of batch b of the logits array. -/
theorem logits_block (c : Dev nD) (t : Fin cfg0.N) (ρ : Fin 64) (v : Fin 32000) (b : Fin 4) (l : Fin 2048)
    (hb : b.val = win0_5.index t (0 : Fin 3)) (hl : l.val = win0_5.index t (1 : Fin 3) * 64 + ρ.val) :
    (iblk m c 0 t : Vec Ideal S1x64x32000 .f32) (ix3 (0 : Fin 1) ρ v) = (V m c main_arg0 : Vec Ideal S4x2048x32000 .f32) (ix3 b l v) := by
  obtain ⟨e00, e01, e02, e10, e11, e12, e20, e21, e22, e30, e31, e32, e40, e41, e42, e52, b50, b51⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = b.val; omega
  | ⟨1, _⟩ => show win0_0.index t (1 : Fin 3) * 64 + 1 * ρ.val = l.val; omega
  | ⟨2, _⟩ => show win0_0.index t (2 : Fin 3) * 32000 + 1 * v.val = v.val; omega

/-- The token-id column block is the same rows of the id array. -/
theorem ids_block (c : Dev nD) (t : Fin cfg0.N) (ρ : Fin 64) (b : Fin 4) (l : Fin 2048) (hb : b.val = win0_5.index t (0 : Fin 3))
    (hl : l.val = win0_5.index t (1 : Fin 3) * 64 + ρ.val) :
    (iblk m c 1 t : Vec Ideal S1x64x1 .i32) (ix3 (0 : Fin 1) ρ (0 : Fin 1)) = (V m c main_v0 : Vec Ideal S4x2048x1 .i32) (ix3 b l (0 : Fin 1)) := by
  obtain ⟨e00, e01, e02, e10, e11, e12, e20, e21, e22, e30, e31, e32, e40, e41, e42, e52, b50, b51⟩ := idx_facts t
  unfold iblk
  rw [View.read_apply]
  show V m c main_v0 _ = V m c main_v0 _
  congr 1
  funext a
  apply Fin.ext
  match a with
  | ⟨0, _⟩ => show win0_1.index t (0 : Fin 3) * 1 + 1 * 0 = b.val; omega
  | ⟨1, _⟩ => show win0_1.index t (1 : Fin 3) * 64 + 1 * ρ.val = l.val; omega
  | ⟨2, _⟩ => show win0_1.index t (2 : Fin 3) * 1 + 1 * 0 = 0; omega

/-- The reference log-probability column block likewise. -/
theorem ref_block (c : Dev nD) (t : Fin cfg0.N) (ρ : Fin 64) (b : Fin 4) (l : Fin 2048) (hb : b.val = win0_5.index t (0 : Fin 3))
    (hl : l.val = win0_5.index t (1 : Fin 3) * 64 + ρ.val) :
    (iblk m c 2 t : Vec Ideal S1x64x1 .f32) (ix3 (0 : Fin 1) ρ (0 : Fin 1)) = (V m c main_v1 : Vec Ideal S4x2048x1 .f32) (ix3 b l (0 : Fin 1)) := by
  obtain ⟨e00, e01, e02, e10, e11, e12, e20, e21, e22, e30, e31, e32, e40, e41, e42, e52, b50, b51⟩ := idx_facts t
  unfold iblk
  rw [View.read_apply]
  show V m c main_v1 _ = V m c main_v1 _
  congr 1
  funext a
  apply Fin.ext
  match a with
  | ⟨0, _⟩ => show win0_2.index t (0 : Fin 3) * 1 + 1 * 0 = b.val; omega
  | ⟨1, _⟩ => show win0_2.index t (1 : Fin 3) * 64 + 1 * ρ.val = l.val; omega
  | ⟨2, _⟩ => show win0_2.index t (2 : Fin 3) * 1 + 1 * 0 = 0; omega

/-- The advantage column block likewise. -/
theorem adv_block (c : Dev nD) (t : Fin cfg0.N) (ρ : Fin 64) (b : Fin 4) (l : Fin 2048) (hb : b.val = win0_5.index t (0 : Fin 3))
    (hl : l.val = win0_5.index t (1 : Fin 3) * 64 + ρ.val) :
    (iblk m c 3 t : Vec Ideal S1x64x1 .f32) (ix3 (0 : Fin 1) ρ (0 : Fin 1)) = (V m c main_v4 : Vec Ideal S4x2048x1 .f32) (ix3 b l (0 : Fin 1)) := by
  obtain ⟨e00, e01, e02, e10, e11, e12, e20, e21, e22, e30, e31, e32, e40, e41, e42, e52, b50, b51⟩ := idx_facts t
  unfold iblk
  rw [View.read_apply]
  show V m c main_v4 _ = V m c main_v4 _
  congr 1
  funext a
  apply Fin.ext
  match a with
  | ⟨0, _⟩ => show win0_3.index t (0 : Fin 3) * 1 + 1 * 0 = b.val; omega
  | ⟨1, _⟩ => show win0_3.index t (1 : Fin 3) * 64 + 1 * ρ.val = l.val; omega
  | ⟨2, _⟩ => show win0_3.index t (2 : Fin 3) * 1 + 1 * 0 = 0; omega

/-- The mask-weight column block likewise. -/
theorem mask_block (c : Dev nD) (t : Fin cfg0.N) (ρ : Fin 64) (b : Fin 4) (l : Fin 2048) (hb : b.val = win0_5.index t (0 : Fin 3))
    (hl : l.val = win0_5.index t (1 : Fin 3) * 64 + ρ.val) :
    (iblk m c 4 t : Vec Ideal S1x64x1 .f32) (ix3 (0 : Fin 1) ρ (0 : Fin 1)) = (V m c main_v2 : Vec Ideal S4x2048x1 .f32) (ix3 b l (0 : Fin 1)) := by
  obtain ⟨e00, e01, e02, e10, e11, e12, e20, e21, e22, e30, e31, e32, e40, e41, e42, e52, b50, b51⟩ := idx_facts t
  unfold iblk
  rw [View.read_apply]
  show V m c main_v2 _ = V m c main_v2 _
  congr 1
  funext a
  apply Fin.ext
  match a with
  | ⟨0, _⟩ => show win0_4.index t (0 : Fin 3) * 1 + 1 * 0 = b.val; omega
  | ⟨1, _⟩ => show win0_4.index t (1 : Fin 3) * 64 + 1 * ρ.val = l.val; omega
  | ⟨2, _⟩ => show win0_4.index t (2 : Fin 3) * 1 + 1 * 0 = 0; omega

/-- An array-sized function read through the output window's block at point t, at row ρ, is the function at row 64 λ + ρ of
    batch b. -/
theorem out_block_read (G : S4x2048x1.Idx → EReal) (t : Fin cfg0.N) (z : Fin 1) (ρ : Fin 64) (z' : Fin 1) (b : Fin 4) (l : Fin 2048)
    (hb : b.val = win0_5.index t (0 : Fin 3)) (hl : l.val = win0_5.index t (1 : Fin 3) * 64 + ρ.val) :
    View.read (Elt Ideal) ((View.whole main_v5).slice ((win0 5).rect t)) G (ix3 z ρ z') = G (ix3 b l (0 : Fin 1)) := by
  obtain ⟨e00, e01, e02, e10, e11, e12, e20, e21, e22, e30, e31, e32, e40, e41, e42, e52, b50, b51⟩ := idx_facts t
  rw [View.read_apply]
  refine congrArg G ?_
  funext a
  apply Fin.ext
  match a with
  | ⟨0, _⟩ => show win0_5.index t (0 : Fin 3) * 1 + 1 * z.val = b.val; omega
  | ⟨1, _⟩ => show win0_5.index t (1 : Fin 3) * 64 + 1 * ρ.val = l.val; omega
  | ⟨2, _⟩ => show win0_5.index t (2 : Fin 3) * 1 + 1 * z'.val = 0; omega

/-! ## What a point writes back, the cover, the array after the run -/

/-- WHAT POINT t WRITES BACK is block t of the loss array of the arrays the region finds. -/
theorem flushed_eq (c : Dev nD) (t : Fin cfg0.N) :
    (dats m 0 c).flushed 5 t = ((cfg0.win 5).blk t).view.read (Elt Ideal)
      (lossArray (V m c main_arg0) (V m c main_v0) (V m c main_v1) (V m c main_v4) (V m c main_v2)) := by
  show (cfg0.win 5).cut (grid0.coords t) ((dats m 0 c).after 5 t) = _
  rw [after0_5]
  unfold out0_5
  rw [View.canon_unit_zero hz]
  simp only [View.ld_unit_zero (S := S1x64x32000) hz, View.ld_unit_zero (S := S1x64x1) hz]
  obtain ⟨e00, e01, e02, e10, e11, e12, e20, e21, e22, e30, e31, e32, e40, e41, e42, e52, b50, b51⟩ := idx_facts t
  refine funext fun (j : S1x64x1.Idx) => ?_
  obtain ⟨z, ρ, z', rfl⟩ : ∃ (z : Fin 1) (ρ : Fin 64) (z' : Fin 1), j = ix3 z ρ z' := ⟨j 0, j 1, j 2, eq_ix3 j⟩
  refine (stored_at (iblk m c 0 t) (iblk m c 1 t) (iblk m c 2 t) (iblk m c 3 t) (iblk m c 4 t) z ρ z').trans ?_
  have hl : win0_5.index t (1 : Fin 3) * 64 + ρ.val < 2048 := by have := ρ.isLt; omega
  rw [out_block_read _ t z ρ z' ⟨win0_5.index t (0 : Fin 3), b50⟩ ⟨win0_5.index t (1 : Fin 3) * 64 + ρ.val, hl⟩ rfl rfl]
  have e0 : (fun v : Fin 32000 => (iblk m c 0 t : Vec Ideal S1x64x32000 .f32) (ix3 (0 : Fin 1) ρ v))
      = fun v => (V m c main_arg0 : Vec Ideal S4x2048x32000 .f32) (ix3 (⟨win0_5.index t (0 : Fin 3), b50⟩ : Fin 4) (⟨win0_5.index t (1 : Fin 3) * 64 + ρ.val, hl⟩ : Fin 2048) v) :=
    funext fun v => logits_block m c t ρ v _ _ rfl rfl
  rw [e0, ids_block m c t ρ ⟨win0_5.index t (0 : Fin 3), b50⟩ ⟨win0_5.index t (1 : Fin 3) * 64 + ρ.val, hl⟩ rfl rfl,
    ref_block m c t ρ ⟨win0_5.index t (0 : Fin 3), b50⟩ ⟨win0_5.index t (1 : Fin 3) * 64 + ρ.val, hl⟩ rfl rfl,
    adv_block m c t ρ ⟨win0_5.index t (0 : Fin 3), b50⟩ ⟨win0_5.index t (1 : Fin 3) * 64 + ρ.val, hl⟩ rfl rfl,
    mask_block m c t ρ ⟨win0_5.index t (0 : Fin 3), b50⟩ ⟨win0_5.index t (1 : Fin 3) * 64 + ρ.val, hl⟩ rfl rfl]
  rfl

/-- Every index of the output array is in some point's block: rows l of batch b in the block of point (b, l / 64). -/
theorem covered (i : S4x2048x1.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1 := (i 2).isLt
  obtain ⟨t, ht⟩ := idx_onto ⟨(i 0).val, hi0⟩ ⟨(i 1).val / 64, by omega⟩
  have q0 : win0_5.index t (0 : Fin 3) = (i 0).val := congrFun ht 0
  have q1 : win0_5.index t (1 : Fin 3) = (i 1).val / 64 := congrFun ht 1
  have q2 : win0_5.index t (2 : Fin 3) = 0 := congrFun ht 2
  refine ⟨t, flush0_5 t, ?_⟩
  show i ∈ ((View.whole main_v5).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 1 ≤ (i 2).val ∧ (i 2).val < win0_5.index t (2 : Fin 3) * 1 + 1; omega

/-- THE ARRAY after the run: the loss array of the arrays the region finds. -/
theorem final (c : Dev nD) :
    (dats m 0 c).arrAt 5 cfg0.N = lossArray (V m c main_arg0) (V m c main_v0) (V m c main_v1) (V m c main_v4) (V m c main_v2) :=
  (dats m 0 c).arrAt_eq_of_cover 5 _ (fun t _ => flushed_eq m c t) (fun i => covered i)

end Cert.KernelIdeal.Arr

end
-- ==== Proof.KernelResult.lean ====
/-
  The kernel's result.

  Before the region the host reshapes the token ids, the reference log-probabilities and the mask weights to a trailing
  unit axis and copies each advantage along its batch's tokens; after it the host drops the output's unit axis, sums the
  masked losses and the mask weights over the tokens of each batch, divides, sums over the batches and divides by 4. So
  the program's result is that tail of the array whose entry (b, l) is the kernel's per-token loss of the arguments at
  token (b, l), and the arguments end as launched.
-/
import proofs.«430598_j54941221651106_2_alg».proof.Proof.KernelArray
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Result

open Cert.KernelIdeal Cert.KernelIdeal.Gen Cert.KernelIdeal.Body Cert.KernelIdeal.Arr Cert.TokenLoss

variable (m : (ℓ : Loc nD τ sig) → Buf (Elt Ideal) ℓ) (ρ : Dev nD → PrngReg)

/-! ## The arrays the region finds, read at a token -/

theorem ids_found (c : Dev nD) : (V m c main_v0 : Vec Ideal S4x2048x1 .i32)
    = shapeCast S4x2048x1 (m ((c.tc : Thread nD τ).loc main_arg2) : IVec S4x2048 32) shapeCasts_S4x2048_S4x2048x1 := by
  show StableHlo.after hostOps0 (fun b => m (c, b)) (Proc.devRef .tc main_v0) = _
  after_results
  all_goals rfl

theorem ref_found (c : Dev nD) : (V m c main_v1 : Vec Ideal S4x2048x1 .f32)
    = shapeCast S4x2048x1 (m ((c.tc : Thread nD τ).loc main_arg1) : FVec Ideal S4x2048 .f32) shapeCasts_S4x2048_S4x2048x1 := by
  show StableHlo.after hostOps0 (fun b => m (c, b)) (Proc.devRef .tc main_v1) = _
  after_results
  all_goals rfl

theorem mask_found (c : Dev nD) : (V m c main_v2 : Vec Ideal S4x2048x1 .f32)
    = shapeCast S4x2048x1 (m ((c.tc : Thread nD τ).loc main_arg4) : FVec Ideal S4x2048 .f32) shapeCasts_S4x2048_S4x2048x1 := by
  show StableHlo.after hostOps0 (fun b => m (c, b)) (Proc.devRef .tc main_v2) = _
  after_results
  all_goals rfl

theorem adv_found (c : Dev nD) : (V m c main_v4 : Vec Ideal S4x2048x1 .f32)
    = broadcastInDim S4x2048x1 ![0, 1, 2] bcast_S4x1x1_S4x2048x1_0_1_2
        (broadcastInDim S4x1x1 ![0] bcast_S4_S4x1x1_0 (m ((c.tc : Thread nD τ).loc main_arg3) : FVec Ideal S4 .f32)) := by
  show StableHlo.after hostOps0 (fun b => m (c, b)) (Proc.devRef .tc main_v4) = _
  after_results
  all_goals rfl

/-- A [4, 2048] array with a trailing unit axis, at (b, l, 0), is the array at (b, l). -/
theorem unit_axis_at {α : Type} (x : S4x2048.Idx → α) (h : S4x2048.ShapeCasts S4x2048x1) (b : Fin 4) (l : Fin 2048) (z : Fin 1) :
    shapeCast S4x2048x1 x h (ix3 b l z) = x (ix2 b l) := by
  refine shapeCast_apply x h _ _ ?_
  rw [Shape.rowMajor_val_two, Shape.rowMajor_val_three]
  show b.val * 2048 + l.val = (b.val * 2048 + l.val) * 1 + z.val
  omega

/-- The advantages copied along the tokens, at (b, l, 0), are the advantage of batch b. -/
theorem adv_at (x : FVec Ideal S4 .f32) (b : Fin 4) (l : Fin 2048) (z : Fin 1) :
    broadcastInDim S4x2048x1 ![0, 1, 2] bcast_S4x1x1_S4x2048x1_0_1_2 (broadcastInDim S4x1x1 ![0] bcast_S4_S4x1x1_0 x) (ix3 b l z) = x (ix1 b) := by
  rw [broadcastInDim_apply _ bcast_S4x1x1_S4x2048x1_0_1_2 _ (ix3 b l z) (ix3 b (0 : Fin 1) (0 : Fin 1)) (fun a => by
      match a with
      | ⟨0, _⟩ => rfl
      | ⟨1, _⟩ => rfl
      | ⟨2, _⟩ => rfl),
    broadcastInDim_apply _ bcast_S4_S4x1x1_0 x (ix3 b (0 : Fin 1) (0 : Fin 1)) (ix1 b) (fun a => by
      match a with
      | ⟨0, _⟩ => rfl)]

/-- The loss of token (b, l) from the arrays the region finds is the kernel's per-token loss of the arguments. -/
theorem token_of_args (c : Dev nD) (b : Fin 4) (l : Fin 2048) :
    tokenAt (V m c main_arg0) (V m c main_v0) (V m c main_v1) (V m c main_v4) (V m c main_v2) b l
      = kernelToken (fun v => (m ((c.tc : Thread nD τ).loc main_arg0) : FVec Ideal S4x2048x32000 .f32) (ix3 b l v))
          ((m ((c.tc : Thread nD τ).loc main_arg2) : IVec S4x2048 32) (ix2 b l))
          ((m ((c.tc : Thread nD τ).loc main_arg1) : FVec Ideal S4x2048 .f32) (ix2 b l))
          ((m ((c.tc : Thread nD τ).loc main_arg3) : FVec Ideal S4 .f32) (ix1 b))
          ((m ((c.tc : Thread nD τ).loc main_arg4) : FVec Ideal S4x2048 .f32) (ix2 b l)) := by
  unfold tokenAt
  rw [V_main_arg0 m c, ids_found, ref_found, mask_found, adv_found, unit_axis_at, unit_axis_at, unit_axis_at, adv_at]

/-! ## The host tail -/

/-- The host operations after the region, as one function of the masked losses and the mask weights. -/
def tail (y k : FVec Ideal S4x2048 .f32) : FVec Ideal S_ .f32 :=
  Host.divf
    (Host.reduceAdd
      (Host.divf (Host.reduceAdd y (constant S_ .f32 0x00000000#32) reducesTo_S4x2048_S4_d1 h_S_)
        (Host.reduceAdd k (constant S_ .f32 0x00000000#32) reducesTo_S4x2048_S4_d1 h_S_))
      (constant S_ .f32 0x00000000#32) reducesTo_S4_S_d0 h_S_)
    (constant S_ .f32 0x40800000#32)

/-- What the program leaves in its result buffer. -/
theorem result_eq (c : Dev nD) :
    Pipeline.afterTail₀ cfgs (dats m) 0 (V0 m) [hostOps1] c main_v11
      = tail (shapeCast S4x2048 ((dats m 0 c).arrAt 5 cfg0.N : Vec Ideal S4x2048x1 .f32) shapeCasts_S4x2048x1_S4x2048)
          (m ((c.tc : Thread nD τ).loc main_arg4)) := by
  unfold Pipeline.afterTail₀
  show StableHlo.after hostOps1 _ (Proc.devRef .tc main_v11) = _
  after_results
  have h5 : Pipeline.withArrays (cfgs 0).spec c (V0 m c) (fun w => (dats m 0 c).arrAt w (cfgs 0).N) (Proc.devRef .tc main_v5)
      = (dats m 0 c).arrAt 5 cfg0.N := Pipeline.withArrays_arr spec0 launch0.win.arr_inj c _ _ 5
  have h4 : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans
      (V_main_arg4 m c)
  rw [h5, h4]
  rfl

/-- The masked losses the tail sums: at (b, l) the kernel's per-token loss of the arguments at token (b, l). -/
theorem masked_at (c : Dev nD) (b : Fin 4) (l : Fin 2048) :
    shapeCast S4x2048 ((dats m 0 c).arrAt 5 cfg0.N : Vec Ideal S4x2048x1 .f32) shapeCasts_S4x2048x1_S4x2048 (ix2 b l)
      = kernelToken (fun v => (m ((c.tc : Thread nD τ).loc main_arg0) : FVec Ideal S4x2048x32000 .f32) (ix3 b l v))
          ((m ((c.tc : Thread nD τ).loc main_arg2) : IVec S4x2048 32) (ix2 b l))
          ((m ((c.tc : Thread nD τ).loc main_arg1) : FVec Ideal S4x2048 .f32) (ix2 b l))
          ((m ((c.tc : Thread nD τ).loc main_arg3) : FVec Ideal S4 .f32) (ix1 b))
          ((m ((c.tc : Thread nD τ).loc main_arg4) : FVec Ideal S4x2048 .f32) (ix2 b l)) := by
  have hk : (S4x2048x1.rowMajor (ix3 b l (0 : Fin 1))).val = (S4x2048.rowMajor (ix2 b l)).val := by
    rw [Shape.rowMajor_val_two, Shape.rowMajor_val_three]
    show (b.val * 2048 + l.val) * 1 + 0 = b.val * 2048 + l.val
    omega
  rw [shapeCast_apply _ shapeCasts_S4x2048x1_S4x2048 (ix2 b l) (ix3 b l (0 : Fin 1)) hk, final]
  exact token_of_args m c b l

/-! ## The run -/

/-- On every device, from any memory with zero counters: every weakly fair execution of the program terminates with its
    result at the tail of the output array and the argument arrays unchanged. -/
theorem ran : θ_run defs (onTc (τ := τ) (main (F := Ideal))) ⟨m, fun _ => 0, ρ⟩ fun r => ∀ c : Dev nD,
      r.2.mem ((c.tc : Thread nD τ).loc main_v11)
        = tail (shapeCast S4x2048 ((dats m 0 c).arrAt 5 cfg0.N : Vec Ideal S4x2048x1 .f32) shapeCasts_S4x2048x1_S4x2048)
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v11 (Pipeline.mem_restRefs_of main_v11 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).2 main_arg4 (Pipeline.mem_restRefs_of main_arg4 (by decide) (by decide))).trans (W_main_arg4 m (dats m) c)⟩)
    (run_main m ρ)

end Cert.KernelIdeal.Result

end
-- ==== Proof.RefRun.lean ====
/-
  The reference's run, stated over its stages.

  The reference is a straight line of 65 host operations: the 15 of the log-softmax of the logits, the broadcast of the
  token ids to a trailing unit axis, the 22 of the take along the last axis (the ids wrapped where negative, the range
  test, the gather, the fill), and the 27 of the loss (the difference to the reference log-probability, the estimator
  exp d - d - 1, the ratio, the scaling, the masking, the sums and the two quotients). Every weakly fair execution
  terminates with each buffer at the fold of the operations' results over the launch contents; read one stretch at a
  time, that fold puts the log-softmax stage in its buffer, then the broadcast ids, then the gathered column, then the
  result, each as the stage function of the argument arrays, and it leaves the five argument arrays as launched.

  The operations of the two called functions move each value to its buffer's type and back; at a literal buffer both
  moves are the identity, a move there and back is the value whatever the buffer, and only the buffers a stretch
  starts from or ends in need the former.
-/
import proofs.«430598_j54941221651106_2_alg».proof.Proof.RefReadP

noncomputable section

namespace Cert.ReferenceIdeal.Ran

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## Values at a buffer's type -/

/-- A value moved to a literal buffer's type and back is the value. -/
theorem ofBuf_toBuf_of {T : BufTy} (r : Ref sig .tc) (p : r.ty = T) (q : r.space ≠ .host) (s : r.isScoped = false)
    (v : T.Contents (Elt F)) : (TRef.of (T := T) r p q s).ofBuf ((TRef.of (T := T) r p q s).toBuf v) = v := by
  subst p; rfl

theorem ofBuf_main_arg0 (p : main_arg0.ty = ⟨S4x2048x32000, .f32⟩) (q : main_arg0.space ≠ .host) (s : main_arg0.isScoped = false)
    (v : main_arg0.ty.Contents (Elt F)) : (TRef.of main_arg0 p q s).ofBuf v = v := rfl
theorem toBuf_main_v0 (p : main_v0.ty = ⟨S4x2048x32000, .f32⟩) (q : main_v0.space ≠ .host) (s : main_v0.isScoped = false)
    (v : (⟨S4x2048x32000, .f32⟩ : BufTy).Contents (Elt F)) : (TRef.of main_v0 p q s).toBuf v = v := rfl
theorem ofBuf_main_v0 (p : main_v0.ty = ⟨S4x2048x32000, .f32⟩) (q : main_v0.space ≠ .host) (s : main_v0.isScoped = false)
    (v : main_v0.ty.Contents (Elt F)) : (TRef.of main_v0 p q s).ofBuf v = v := rfl
theorem ofBuf_main_v1 (p : main_v1.ty = ⟨S4x2048x1, .i32⟩) (q : main_v1.space ≠ .host) (s : main_v1.isScoped = false)
    (v : main_v1.ty.Contents (Elt F)) : (TRef.of main_v1 p q s).ofBuf v = v := rfl
theorem toBuf_main_v2 (p : main_v2.ty = ⟨S4x2048x1, .f32⟩) (q : main_v2.space ≠ .host) (s : main_v2.isScoped = false)
    (v : (⟨S4x2048x1, .f32⟩ : BufTy).Contents (Elt F)) : (TRef.of main_v2 p q s).toBuf v = v := rfl

/-- The take's reshape of the wrapped ids, between two literal buffers of the called function: the reshape of the value. -/
theorem reshape_call1_v4_v5 (p : main_call1_v5.ty = ⟨S4x2048x1x1, .i32⟩) (q : main_call1_v5.space ≠ .host) (s : main_call1_v5.isScoped = false)
    (p' : main_call1_v4.ty = ⟨S4x2048x1, .i32⟩) (q' : main_call1_v4.space ≠ .host) (s' : main_call1_v4.isScoped = false)
    (hn : main_call1_v4.ty.shape.ShapeCasts main_call1_v5.ty.shape)
    (X : (⟨S4x2048x1, .i32⟩ : BufTy).Contents (Elt F)) :
    (TRef.of main_call1_v5 p q s).ofBuf (fun i => shapeCast main_call1_v5.ty.shape ((TRef.of main_call1_v4 p' q' s').toBuf X) hn i)
      = shapeCast S4x2048x1x1 X shapeCasts_S4x2048x1_S4x2048x1x1 := rfl

/-! ## The line, a stretch at a time -/

/-- A stretch of the operation list, as a literal list, then each operation's result read off. -/
macro "read_stretch" : tactic =>
  `(tactic| (simp only [ops, List.take_succ_cons, List.take_zero, List.drop_succ_cons, List.drop_zero]
             after_results_simp))

/-- The list is its four stretches. -/
theorem ops_stretches : (ops : List (HloOp τ sig (Elt F)))
    = (ops.take 15 ++ ((ops.drop 15).take 1 ++ ((ops.drop 16).take 22 ++ ops.drop 38))) := by
  rw [← List.drop_drop (i := 1) (j := 15), ← List.drop_drop (i := 22) (j := 16), ← List.drop_drop (i := 1) (j := 15)]
  simp only [List.take_append_drop]

/-- Running a concatenation is running its parts in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The result buffer after the whole line is the last stage of the argument arrays. -/
theorem result_stage (V : Valuation τ sig (Elt F)) :
    after ops V (Proc.devRef .tc main_v23)
      = val_main_v23 (F := F) (V (Proc.devRef .tc main_arg0)) (V (Proc.devRef .tc main_arg1)) (V (Proc.devRef .tc main_arg2))
          (V (Proc.devRef .tc main_arg3)) (V (Proc.devRef .tc main_arg4)) := by
  rw [ops_stretches, after_append, after_append, after_append]
  -- the log-softmax stretch
  have a0 : after (ops.take 15) V (Proc.devRef .tc main_v0) = val_main_v0 (F := F) (V (Proc.devRef .tc main_arg0)) := by
    read_stretch
    simp only [ofBuf_toBuf_of]
    simp only [toBuf_main_v0, ofBuf_main_arg0]
    simp only [val_main_v0, val_main_call0_v10, val_main_call0_v9, val_main_call0_v8, val_main_call0_v7, val_main_call0_cst_1,
      val_main_call0_v6, val_main_call0_v5, val_main_call0_v4, val_main_call0_v3, val_main_call0_v2, val_main_call0_v1,
      val_main_call0_cst_0, val_main_call0_v0, val_main_call0_cst]
  have a1 : after (ops.take 15) V (Proc.devRef .tc main_arg1) = V (Proc.devRef .tc main_arg1) := by read_stretch
  have a2 : after (ops.take 15) V (Proc.devRef .tc main_arg2) = V (Proc.devRef .tc main_arg2) := by read_stretch
  have a3 : after (ops.take 15) V (Proc.devRef .tc main_arg3) = V (Proc.devRef .tc main_arg3) := by read_stretch
  have a4 : after (ops.take 15) V (Proc.devRef .tc main_arg4) = V (Proc.devRef .tc main_arg4) := by read_stretch
  generalize after (ops.take 15) V = W1 at a0 a1 a2 a3 a4
  -- the ids with a trailing unit axis
  have b0 : after ((ops.drop 15).take 1) W1 (Proc.devRef .tc main_v0)
      = val_main_v0 (F := F) (V (Proc.devRef .tc main_arg0)) := by
    read_stretch; rw [a0]
  have b1 : after ((ops.drop 15).take 1) W1 (Proc.devRef .tc main_v1)
      = val_main_v1 (F := F) (V (Proc.devRef .tc main_arg2)) := by
    read_stretch; rw [a2]; simp only [val_main_v1]
  have b2 : after ((ops.drop 15).take 1) W1 (Proc.devRef .tc main_arg1) = V (Proc.devRef .tc main_arg1) := by
    read_stretch; rw [a1]
  have b3 : after ((ops.drop 15).take 1) W1 (Proc.devRef .tc main_arg3) = V (Proc.devRef .tc main_arg3) := by
    read_stretch; rw [a3]
  have b4 : after ((ops.drop 15).take 1) W1 (Proc.devRef .tc main_arg4) = V (Proc.devRef .tc main_arg4) := by
    read_stretch; rw [a4]
  generalize after ((ops.drop 15).take 1) W1 = W2 at b0 b1 b2 b3 b4
  -- the take along the last axis
  have c0 : after ((ops.drop 16).take 22) W2 (Proc.devRef .tc main_v2)
      = val_main_v2 (F := F) (V (Proc.devRef .tc main_arg0)) (V (Proc.devRef .tc main_arg2)) := by
    read_stretch
    simp only [ofBuf_toBuf_of]
    simp only [toBuf_main_v2, ofBuf_main_v0, ofBuf_main_v1, reshape_call1_v4_v5]
    rw [b0, b1]
    simp only [val_main_v2, val_main_call1_v14, val_main_call1_cst, val_main_call1_v13, val_main_call1_v12, val_main_call1_c_3,
      val_main_call1_v11, val_main_call1_v10, val_main_call1_v9, val_main_call1_v8, val_main_call1_v7, val_main_call1_v6,
      val_main_call1_c_2, val_main_call1_c_1, val_main_call1_v5, val_main_call1_v4, val_main_call1_v3, val_main_call1_v2,
      val_main_call1_c_0, val_main_call1_v1, val_main_call1_v0, val_main_call1_c]
    rfl
  have c1 : after ((ops.drop 16).take 22) W2 (Proc.devRef .tc main_arg1) = V (Proc.devRef .tc main_arg1) := by read_stretch; rw [b2]
  have c3 : after ((ops.drop 16).take 22) W2 (Proc.devRef .tc main_arg3) = V (Proc.devRef .tc main_arg3) := by read_stretch; rw [b3]
  have c4 : after ((ops.drop 16).take 22) W2 (Proc.devRef .tc main_arg4) = V (Proc.devRef .tc main_arg4) := by read_stretch; rw [b4]
  generalize after ((ops.drop 16).take 22) W2 = W3 at c0 c1 c3 c4
  -- the loss
  have d0 : after (ops.drop 38) W3 (Proc.devRef .tc main_v23)
      = val_main_v23 (F := F) (V (Proc.devRef .tc main_arg0)) (V (Proc.devRef .tc main_arg1)) (V (Proc.devRef .tc main_arg2))
          (V (Proc.devRef .tc main_arg3)) (V (Proc.devRef .tc main_arg4)) := by
    read_stretch
    rw [c0, c1, c3, c4]
    simp only [val_main_v23, val_main_cst_4, val_main_v22, val_main_cst_3, val_main_v21, val_main_v20, val_main_cst_2, val_main_v19,
      val_main_cst_1, val_main_v18, val_main_v17, val_main_v16, val_main_v15, val_main_v14, val_main_cst_0, val_main_v13, val_main_v12,
      val_main_v11, val_main_v10, val_main_v9, val_main_v8, val_main_v7, val_main_cst, val_main_v6, val_main_v5, val_main_v4, val_main_v3]
    rfl
  exact d0

/-! ## The run -/

/-- On every device, from any memory with zero counters: every weakly fair execution of the reference terminates with its
    result at the last stage of the argument arrays as launched, and the argument arrays unchanged. -/
theorem ran (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = val_main_v23 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v23).trans (result_stage (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Ran

end
-- ==== Proof.LibTakeAlongLast.lean ====
/-
  A StableHLO gather that is a TAKE ALONG THE LAST AXIS of a rank-3 array, read at an index.

  jnp's take_along_axis (x, idx[..., None], axis = -1) for x : [A, B, N] and idx : [A, B] lowers to one
  stablehlo.gather whose two leading axes are BATCHING axes (operand_batching_dims = start_indices_batching_dims = [0, 1]),
  whose last operand axis is collapsed and indexed (collapsed_slice_dims = start_index_map = [2]), with the start indices
  reshaped to [A, B, 1, 1] (index_vector_dim = 3), unit slices, and result [A, B, 1]. Its element (a, b, 0) is the operand
  at (a, b, i) where i is the start index at (a, b, 0, 0) read as a signed integer and clamped into [0, N - 1], as
  StableHLO clamps every start index: on a batching axis the operand coordinate is the result's batch coordinate, on the
  collapsed axis it is the clamped start.
-/
import Idealize.ShloMosaic.Lib.ValueIdx

noncomputable section

namespace Idealize.ShloMosaic.TakeAlongLast

open Idealize.ShloMosaic Idealize.ShloMosaic.ValueIdx

variable {α : Type}

/-- The dimension numbers of that gather for an operand [A, B, N], start indices [A, B, 1, 1] and result [A, B, 1];
    their conditions wf are decided on a program's literal shapes. -/
abbrev takeLastDims (A B N : Nat)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- THE GATHER READ AT (a, b, z): the operand at (a, b, i), i the start index at (a, b, 0, 0) read signed and clamped
    into [0, N - 1]. -/
theorem gather_takeLast_apply {A B N w : Nat} (hN : 0 < N)
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (idx : IVec ⟨4, ![A, B, 1, 1]⟩ w) (a : Fin A) (b : Fin B) (z : Fin 1) :
    Host.gather (takeLastDims A B N wf) x idx (ix3 a b z)
      = x (ix3 a b ⟨min (idx (ix4 a b (0 : Fin 1) (0 : Fin 1))).toInt.toNat (N - 1), by omega⟩) := by
  have m0 : (0 : Fin 3) ∈ ([0, 1] : List (Fin 3)) := by decide
  have m1 : (1 : Fin 3) ∈ ([0, 1] : List (Fin 3)) := by decide
  have n2 : (2 : Fin 3) ∉ ([0, 1] : List (Fin 3)) := by decide
  have c2 : (2 : Fin 3) ∈ ([2] : List (Fin 3)) := by decide
  unfold Host.gather
  congr 1
  funext ax
  refine Fin.ext ?_
  match ax with
  | ⟨0, _⟩ =>
    show (takeLastDims A B N wf).start (ix3 a b z) idx 0 + (takeLastDims A B N wf).batchCoord (ix3 a b z) 0
        + (takeLastDims A B N wf).offCoord (ix3 a b z) 0 = a.val
    rw [GatherDims.start_batching _ _ _ _ m0,
      GatherDims.offCoord_eq_zero _ _ _ (fun h => ((GatherDims.mem_sKept _ _).mp h).2 m0)]
    simp only [Nat.zero_add, Nat.add_zero]
    rfl
  | ⟨1, _⟩ =>
    show (takeLastDims A B N wf).start (ix3 a b z) idx 1 + (takeLastDims A B N wf).batchCoord (ix3 a b z) 1
        + (takeLastDims A B N wf).offCoord (ix3 a b z) 1 = b.val
    rw [GatherDims.start_batching _ _ _ _ m1,
      GatherDims.offCoord_eq_zero _ _ _ (fun h => ((GatherDims.mem_sKept _ _).mp h).2 m1)]
    simp only [Nat.zero_add, Nat.add_zero]
    rfl
  | ⟨2, _⟩ =>
    show (takeLastDims A B N wf).start (ix3 a b z) idx 2 + (takeLastDims A B N wf).batchCoord (ix3 a b z) 2
        + (takeLastDims A B N wf).offCoord (ix3 a b z) 2 = min (idx (ix4 a b (0 : Fin 1) (0 : Fin 1))).toInt.toNat (N - 1)
    rw [GatherDims.batchCoord_eq_zero _ _ _ n2,
      GatherDims.offCoord_eq_zero _ _ _ (fun h => ((GatherDims.mem_sKept _ _).mp h).1 c2)]
    simp only [Nat.add_zero]
    unfold GatherDims.start
    rw [dif_pos (show (2 : Fin 3) ∈ (takeLastDims A B N wf).startIndexMap from c2)]
    have hsi : (takeLastDims A B N wf).siIdx (ix3 a b z) ⟨List.idxOf (2 : Fin 3) (takeLastDims A B N wf).startIndexMap,
        List.idxOf_lt_length_iff.2 c2⟩ = ix4 a b (0 : Fin 1) (0 : Fin 1) := by
      funext e; refine Fin.ext ?_
      match e with
      | ⟨0, _⟩ => rfl
      | ⟨1, _⟩ => rfl
      | ⟨2, _⟩ => show z.val = 0; omega
      | ⟨3, _⟩ => rfl
    rw [hsi]
    rfl

end Idealize.ShloMosaic.TakeAlongLast

end
-- ==== Proof.RefValue.lean ====
/-
  The reference at one token.

  Read one stage at a time at token (b, l): the log-softmax of the logits at column v is (x_v - m') - log s', with m' the
  row's maximum folded from -∞ and joined with -∞ once more and s' the sum of exponentials from 0; a token id that is the
  word of a column number q is not negative, so the wrap leaves it, the range test 0 ≤ id ≤ 31999 holds, the gather reads
  column q (the clamp into [0, 31999] leaves q) and the fill is not taken; the loss operations then give the reference's
  arrangement of the per-token loss.
-/
import proofs.«430598_j54941221651106_2_alg».proof.Proof.RefReadP
import proofs.«430598_j54941221651106_2_alg».proof.Proof.TokenLoss
import proofs.«430598_j54941221651106_2_alg».proof.Proof.LibTakeAlongLast
import Idealize.ShloMosaic.Lib.ValueIdx
import Idealize.ShloMosaic.Lib.Affine
import Idealize.ShloMosaic.PureOps.Ideal.Laws

noncomputable section

open scoped BigOperators

namespace Cert.ReferenceIdeal.AtToken

open Cert.ReferenceIdeal Cert.ReferenceIdeal.Gen Cert.ReferenceIdeal.ReadP
open Idealize.ShloMosaic Idealize.ShloMosaic.ValueIdx Idealize.ShloMosaic.TakeAlongLast Cert.TokenLoss

variable (x0 : FVec Ideal S4x2048x32000 .f32) (x1 : FVec Ideal S4x2048 .f32) (x2 : IVec S4x2048 32) (x3 : FVec Ideal S4 .f32)
  (x4 : FVec Ideal S4x2048 .f32) (b : Fin 4) (l : Fin 2048)

/-! ## Words of column numbers -/

theorem toInt_column (q : Fin 32000) : (BitVec.ofNat 32 q.val).toInt = (q.val : Int) := by
  have e := BitVec.toInt_eq_toNat_cond (BitVec.ofNat 32 q.val)
  have hq := q.isLt
  have hm : q.val % 2 ^ 32 = q.val := Nat.mod_eq_of_lt (by omega)
  simp only [BitVec.toNat_ofNat, hm] at e
  split_ifs at e with hc
  · exact e
  · exfalso; omega

/-! ## The log-softmax at a column -/

theorem reduces_last : S4x2048x32000.Reduces [2] S4x2048 := by decide

theorem lift_last (v : Fin 32000) : reduces_last.lift (ix2 b l) v = ix3 b l v := by
  funext c
  refine Fin.ext ?_
  match c with
  | ⟨0, _⟩ => rfl
  | ⟨1, _⟩ => rfl
  | ⟨2, _⟩ => rfl

/-- The row's maximum, joined with -∞ once more as the reference does. -/
theorem max_at : val_main_call0_v2 (F := Ideal) x0 (ix2 b l)
    = max (Ideal.ofBits .f32 0xFF800000#32) (rowMax (fun v => x0 (ix3 b l v))) := by
  have hm : val_main_call0_v0 (F := Ideal) x0 (ix2 b l) = rowMax (fun v => x0 (ix3 b l v)) := by
    unfold val_main_call0_v0
    refine (Host.reduce_eq_fold_single FloatOps.maximumf x0 _ _ reduces_last _ (ix2 b l)).trans ?_
    unfold rowMax
    exact congrArg (fun f => Finset.fold max (Ideal.ofBits .f32 0xFF800000#32) f (Finset.univ : Finset (Fin 32000)))
      (funext fun v => congrArg x0 (lift_last b l v))
  rw [val_main_call0_v2_apply, hm, val_main_call0_v1_apply, val_main_call0_cst_0_apply]
  rfl

theorem idx_v7 (k : Fin 32000) : idx_main_call0_v7 (ix2 b l) k = ix3 b l k := by
  funext a; match a with | ⟨0, _⟩ => rfl | ⟨1, _⟩ => rfl | ⟨2, _⟩ => rfl
theorem idx_v4 (k : Fin 32000) : idx_main_call0_v4 (ix3 b l k) = ix3 b l (0 : Fin 1) := by
  funext a; match a with | ⟨0, _⟩ => rfl | ⟨1, _⟩ => rfl | ⟨2, _⟩ => rfl
theorem idx_v3 : idx_main_call0_v3 (ix3 b l (0 : Fin 1)) = ix2 b l := by
  funext a; match a with | ⟨0, _⟩ => rfl | ⟨1, _⟩ => rfl

/-- The logits of the row less the maximum. -/
theorem shifted_at (k : Fin 32000) : val_main_call0_v5 (F := Ideal) x0 (ix3 b l k)
    = x0 (ix3 b l k) - max (Ideal.ofBits .f32 0xFF800000#32) (rowMax (fun v => x0 (ix3 b l v))) := by
  rw [val_main_call0_v5_apply, val_main_call0_v4_apply, idx_v4, val_main_call0_v3_apply, idx_v3, max_at]
  rfl

/-- The sum of the row's exponentials, from 0. -/
theorem sumexp_at : val_main_call0_v7 (F := Ideal) x0 (ix2 b l)
    = Ideal.ofBits .f32 0x00000000#32
      + ∑ v : Fin 32000, Ideal.exp (x0 (ix3 b l v) - max (Ideal.ofBits .f32 0xFF800000#32) (rowMax (fun v => x0 (ix3 b l v)))) := by
  have hs : (∑ k : Fin 32000, val_main_call0_v6 (F := Ideal) x0 (idx_main_call0_v7 (ix2 b l) k))
      = ∑ v : Fin 32000, Ideal.exp (x0 (ix3 b l v) - max (Ideal.ofBits .f32 0xFF800000#32) (rowMax (fun v => x0 (ix3 b l v)))) :=
    Finset.sum_congr rfl fun k _ => by
      rw [idx_v7, val_main_call0_v6_apply, shifted_at]
      rfl
  rw [val_main_call0_v7_apply, hs]
  rfl

theorem idx_v10 (k : Fin 32000) : idx_main_call0_v10 (ix3 b l k) = ix3 b l (0 : Fin 1) := by
  funext a; match a with | ⟨0, _⟩ => rfl | ⟨1, _⟩ => rfl | ⟨2, _⟩ => rfl
theorem idx_v8 : idx_main_call0_v8 (ix3 b l (0 : Fin 1)) = ix2 b l := by
  funext a; match a with | ⟨0, _⟩ => rfl | ⟨1, _⟩ => rfl

/-- The log-softmax of the row at column k. -/
theorem logsoftmax_at (k : Fin 32000) : val_main_v0 (F := Ideal) x0 (ix3 b l k)
    = x0 (ix3 b l k) - max (Ideal.ofBits .f32 0xFF800000#32) (rowMax (fun v => x0 (ix3 b l v)))
      - Ideal.log (Ideal.ofBits .f32 0x00000000#32
          + ∑ v : Fin 32000, Ideal.exp (x0 (ix3 b l v) - max (Ideal.ofBits .f32 0xFF800000#32) (rowMax (fun v => x0 (ix3 b l v))))) := by
  rw [val_main_v0_apply, shifted_at, val_main_call0_v10_apply, idx_v10, val_main_call0_v9_apply, val_main_call0_v8_apply, idx_v8, sumexp_at]
  simp only [Ideal.subf_def, Ideal.hostUnary_log_def]

/-! ## The take at a token whose id is a column number -/

theorem idx_c5 : idx_main_call1_v5 (ix4 b l (0 : Fin 1) (0 : Fin 1)) = ix3 b l (0 : Fin 1) := by
  funext a
  refine Fin.ext ?_
  have hb := b.isLt
  have hl := l.isLt
  match a with
  | ⟨0, _⟩ => show (((b.val * 2048 + l.val) * 1 + 0) * 1 + 0) / 2048 = b.val; omega
  | ⟨1, _⟩ => show (((b.val * 2048 + l.val) * 1 + 0) * 1 + 0) / 1 % 2048 = l.val; omega
  | ⟨2, _⟩ => rfl
theorem idx_m1 : idx_main_v1 (ix3 b l (0 : Fin 1)) = ix2 b l := by
  funext a; match a with | ⟨0, _⟩ => rfl | ⟨1, _⟩ => rfl
theorem idx_m3 : idx_main_v3 (ix2 b l) = ix3 b l (0 : Fin 1) := by
  funext a
  refine Fin.ext ?_
  have hb := b.isLt
  have hl := l.isLt
  match a with
  | ⟨0, _⟩ => show (b.val * 2048 + l.val) / 2048 = b.val; omega
  | ⟨1, _⟩ => show (b.val * 2048 + l.val) / 1 % 2048 = l.val; omega
  | ⟨2, _⟩ => rfl
theorem idx_m12 : idx_main_v12 (ix2 b l) = ix2 b (0 : Fin 1) := by
  funext a; match a with | ⟨0, _⟩ => rfl | ⟨1, _⟩ => rfl
theorem idx_m11 : idx_main_v11 (ix2 b (0 : Fin 1)) = ix1 b := by
  funext a; match a with | ⟨0, _⟩ => rfl

theorem reduces_unit : S4x2048x1x1.Reduces [3] S4x2048x1 := by decide

theorem lift_unit : reduces_unit.lift (ix3 b l (0 : Fin 1)) (0 : Fin 1) = ix4 b l (0 : Fin 1) (0 : Fin 1) := by
  funext c
  refine Fin.ext ?_
  match c with
  | ⟨0, _⟩ => rfl
  | ⟨1, _⟩ => rfl
  | ⟨2, _⟩ => rfl
  | ⟨3, _⟩ => rfl

/-- A fold over the one coordinate of a unit axis. -/
theorem fold_unit (g : Fin 1 → BitVec 1) (i0 : BitVec 1) :
    Finset.fold IntOp.andi i0 g (Finset.univ : Finset (Fin 1)) = IntOp.andi (g 0) i0 := by
  rw [show (Finset.univ : Finset (Fin 1)) = {0} from by decide, Finset.fold_singleton]

section Take

variable (q : Fin 32000) (hq : x2 (ix2 b l) = BitVec.ofNat 32 q.val)
include hq

/-- The id, wrapped where negative: it is not, so it is kept. -/
theorem wrapped_at : val_main_call1_v5 (F := Ideal) x2 (ix4 b l (0 : Fin 1) (0 : Fin 1)) = BitVec.ofNat 32 q.val := by
  rw [val_main_call1_v5_apply, idx_c5, val_main_call1_v4_apply, val_main_call1_v1_apply, val_main_v1_apply, idx_m1, hq]
  have hnot : ¬ IntOp.cmpi .slt (BitVec.ofNat 32 q.val) (val_main_call1_v0 (F := Ideal) (ix3 b l (0 : Fin 1))) = 1#1 := by
    rw [IntOp.cmpi_slt, toInt_column]
    show ¬ (q.val : Int) < (0#32 : BitVec 32).toInt
    simp
  rw [eq_zero_of_ne_one hnot, select_zero]

/-- The range test holds. -/
theorem valid_at : val_main_call1_v12 (F := Ideal) x2 (ix3 b l (0 : Fin 1)) = 1#1 := by
  unfold val_main_call1_v12
  refine (Host.reduce_eq_fold_single IntOp.andi _ _ _ reduces_unit _ (ix3 b l (0 : Fin 1))).trans ?_
  refine (fold_unit _ _).trans ?_
  show IntOp.andi (val_main_call1_v11 (F := Ideal) x2 (reduces_unit.lift (ix3 b l (0 : Fin 1)) (0 : Fin 1))) (1#1) = 1#1
  rw [lift_unit, val_main_call1_v11_apply, val_main_call1_v7_apply, val_main_call1_v10_apply, wrapped_at x2 b l q hq]
  have h7 : IntOp.cmpi .sge (BitVec.ofNat 32 q.val) (val_main_call1_v6 (F := Ideal) (ix4 b l (0 : Fin 1) (0 : Fin 1))) = 1#1 := by
    rw [IntOp.cmpi_sge, toInt_column]
    show (0#32 : BitVec 32).toInt ≤ (q.val : Int)
    simp
  have h10 : IntOp.cmpi .sle (BitVec.ofNat 32 q.val) (val_main_call1_v9 (F := Ideal) (ix4 b l (0 : Fin 1) (0 : Fin 1))) = 1#1 := by
    rw [IntOp.cmpi_sle, toInt_column]
    show (q.val : Int) ≤ (31999#32 : BitVec 32).toInt
    have := q.isLt
    have e : (31999#32 : BitVec 32).toInt = 31999 := by decide
    rw [e]; omega
  rw [h7, h10]
  decide

/-- The gather reads the log-softmax at column q. -/
theorem gathered_at : val_main_call1_v13 (F := Ideal) x0 x2 (ix3 b l (0 : Fin 1)) = val_main_v0 (F := Ideal) x0 (ix3 b l q) := by
  unfold val_main_call1_v13
  have hd : gather_S4x2048x32000_S4x2048x1x1_S4x2048x1_n_2_01_01_2_3_111
      = takeLastDims 4 2048 32000 gather_S4x2048x32000_S4x2048x1x1_S4x2048x1_n_2_01_01_2_3_111_wf := rfl
  rw [hd]
  refine (gather_takeLast_apply (by decide) _ _ _ b l (0 : Fin 1)).trans ?_
  refine congrArg (val_main_v0 (F := Ideal) x0) (congrArg (ix3 b l) (Fin.ext ?_))
  show min (val_main_call1_v5 (F := Ideal) x2 (ix4 b l (0 : Fin 1) (0 : Fin 1))).toInt.toNat (32000 - 1) = q.val
  rw [wrapped_at x2 b l q hq, toInt_column]
  have := q.isLt
  omega

/-- The log-probability of the realized token. -/
theorem picked_at : val_main_v3 (F := Ideal) x0 x2 (ix2 b l)
    = x0 (ix3 b l q) - max (Ideal.ofBits .f32 0xFF800000#32) (rowMax (fun v => x0 (ix3 b l v)))
      - Ideal.log (Ideal.ofBits .f32 0x00000000#32
          + ∑ v : Fin 32000, Ideal.exp (x0 (ix3 b l v) - max (Ideal.ofBits .f32 0xFF800000#32) (rowMax (fun v => x0 (ix3 b l v))))) := by
  rw [val_main_v3_apply, idx_m3, val_main_v2_apply, valid_at x2 b l q hq, gathered_at x0 x2 b l q hq, select_one, logsoftmax_at]

/-- The masked per-token loss of the reference at token (b, l). -/
theorem masked_at : val_main_v18 (F := Ideal) x0 x1 x2 x3 x4 (ix2 b l)
    = referenceToken (fun v => x0 (ix3 b l v)) q (x1 (ix2 b l)) (x3 (ix1 b)) (x4 (ix2 b l)) := by
  rw [val_main_v18_apply, val_main_v17_apply, val_main_v16_apply, val_main_v13_apply, val_main_v10_apply, val_main_v9_apply,
    val_main_v12_apply, idx_m12, val_main_v11_apply, idx_m11, val_main_v15_apply, val_main_v14_apply, val_main_cst_0_apply,
    val_main_v8_apply, val_main_v7_apply, val_main_cst_apply, val_main_v6_apply, val_main_v5_apply, val_main_v4_apply,
    picked_at x0 x2 b l q hq]
  unfold referenceToken
  rfl

end Take

end Cert.ReferenceIdeal.AtToken

end
-- ==== Proof.lean ====
/-
  The kernel computes a GRPO-style loss of logits [4, 2048, 32000] and per-token data: at token (b, l) the loss term
  (β (exp d - d - 1) - a_b) k with d = r - logp, logp the log-probability of the realized token, summed over the tokens of
  a batch, divided by the batch's sum of mask weights k, and averaged over the four batches. The kernel forms logp in a
  Pallas region as g - (m + log s): g the realized token's logit picked by an equality mask over the column numbers and a
  sum, m the row's maximum, s the sum of exp (x - m). The reference forms it as the log-softmax (x - m) - log s gathered
  at the token id, and writes the loss term as -(exp (p - p) a_b - β (exp d - d - 1)).

  With every logit, reference log-probability and advantage a real number and every token id a column number (the
  precondition), both sides are one real number times the mask weight at each token (the specification's law), so the two
  arrays of masked losses are equal and the same host tail (sums, quotients) gives equal results. The three frames are the
  programs' runs; the idealization rewrote nothing, so there is nothing to preserve.
-/
import proofs.«430598_j54941221651106_2_alg».proof.Defs
import proofs.«430598_j54941221651106_2_alg».proof.Proof.Gen.Kernel
import proofs.«430598_j54941221651106_2_alg».proof.Proof.Gen.Kernel.Frame
import proofs.«430598_j54941221651106_2_alg».proof.Proof.Gen.KernelIdeal
import proofs.«430598_j54941221651106_2_alg».proof.Proof.Gen.KernelIdeal.Frame
import proofs.«430598_j54941221651106_2_alg».proof.Proof.Gen.ReferenceIdeal
import proofs.«430598_j54941221651106_2_alg».proof.Proof.Gen.Pre_finite_inputs
import proofs.«430598_j54941221651106_2_alg».proof.Proof.TokenLoss
import proofs.«430598_j54941221651106_2_alg».proof.Proof.PreFacts
import proofs.«430598_j54941221651106_2_alg».proof.Proof.KernelResult
import proofs.«430598_j54941221651106_2_alg».proof.Proof.RefRun
import proofs.«430598_j54941221651106_2_alg».proof.Proof.RefValue
import Idealize.ShloMosaic.Adequacy
import Idealize.ShloMosaic.Init

noncomputable section

namespace Cert.Proof

open Idealize.ShloMosaic Idealize.SL.Sem Idealize.ShloMosaic.ValueIdx

/-! ## The frames and the idealization -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Ran.ran (F := Ideal) m ρ)

theorem preserves : Cert.preserves_Kernel_KernelIdeal := trivial

/-! ## The two results are one -/

/-- The reference's last stage is the kernel's host tail of the reference's masked losses and the mask weights: the two
    programs end with the same sums and quotients. -/
theorem reference_tail (x0 : FVec Ideal Cert.ReferenceIdeal.S4x2048x32000 .f32) (x1 : FVec Ideal Cert.ReferenceIdeal.S4x2048 .f32)
    (x2 : IVec Cert.ReferenceIdeal.S4x2048 32) (x3 : FVec Ideal Cert.ReferenceIdeal.S4 .f32) (x4 : FVec Ideal Cert.ReferenceIdeal.S4x2048 .f32) :
    Cert.ReferenceIdeal.ReadP.val_main_v23 (F := Ideal) x0 x1 x2 x3 x4
      = Cert.KernelIdeal.Result.tail (Cert.ReferenceIdeal.ReadP.val_main_v18 (F := Ideal) x0 x1 x2 x3 x4) x4 := by
  unfold Cert.ReferenceIdeal.ReadP.val_main_v23 Cert.ReferenceIdeal.ReadP.val_main_v22 Cert.ReferenceIdeal.ReadP.val_main_v21
    Cert.ReferenceIdeal.ReadP.val_main_v20 Cert.ReferenceIdeal.ReadP.val_main_v19 Cert.ReferenceIdeal.ReadP.val_main_cst_4
    Cert.ReferenceIdeal.ReadP.val_main_cst_3 Cert.ReferenceIdeal.ReadP.val_main_cst_2 Cert.ReferenceIdeal.ReadP.val_main_cst_1
    Cert.KernelIdeal.Result.tail
  rfl

/-- Under the precondition the reference's masked losses are the kernel's, token by token. -/
theorem masked_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1) :
    Cert.ReferenceIdeal.ReadP.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = shapeCast Cert.KernelIdeal.S4x2048
          ((Cert.KernelIdeal.Gen.dats m 0 c).arrAt 5 Cert.KernelIdeal.cfg0.N : Vec Ideal Cert.KernelIdeal.S4x2048x1 .f32)
          Cert.KernelIdeal.Gen.shapeCasts_S4x2048x1_S4x2048 := by
  obtain ⟨hx, hr, ha, hid⟩ := Cert.Pre_finite_inputs.Decoded.decoded _ _ _ _ _ hpre
  funext i
  obtain ⟨b, l, rfl⟩ : ∃ (b : Fin 4) (l : Fin 2048), i = ix2 b l := ⟨i 0, i 1, eq_ix2 i⟩
  obtain ⟨q, hq⟩ := hid (ix2 b l)
  rw [Cert.ReferenceIdeal.AtToken.masked_at _ _ _ _ _ b l q hq, Cert.KernelIdeal.Result.masked_at m c b l]
  exact Cert.TokenLoss.referenceToken_eq_kernelToken _ q _ _ _ _ (fun v => hx (ix3 b l v)) (hr (ix2 b l)) (ha (ix1 b)) hq

/-- At the ideal values the kernel's result and the reference's are one: from memories agreeing on the arguments both
    programs run, the kernel to the tail of its masked losses, the reference to the same tail of its own, and under the
    precondition the two arrays of masked losses are equal. -/
theorem algebraic : Cert.algebraic_KernelIdeal_ReferenceIdeal := by
  intro m ρ m' ρ' hpre hagree
  refine ⟨fun c => Cert.KernelIdeal.Result.tail
      (shapeCast Cert.KernelIdeal.S4x2048
        ((Cert.KernelIdeal.Gen.dats m 0 c).arrAt 5 Cert.KernelIdeal.cfg0.N : Vec Ideal Cert.KernelIdeal.S4x2048x1 .f32)
        Cert.KernelIdeal.Gen.shapeCasts_S4x2048x1_S4x2048)
      (m ((c.tc : Thread Cert.KernelIdeal.nD Cert.KernelIdeal.τ).loc Cert.KernelIdeal.main_arg4)),
    Cert.KernelIdeal.Result.ran m ρ, ?_⟩
  refine (θ_run Cert.ReferenceIdeal.defs _ _).mono (fun _ h c => ⟨(h c).1.trans ?_, (h c).2⟩)
    (Cert.ReferenceIdeal.Ran.ran (F := Ideal) m' ρ')
  obtain ⟨e0, e1, e2, e3, e4⟩ := hagree c
  rw [e0, e1, e2, e3, e4, reference_tail, masked_eq m c (hpre c)]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
